-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x896 : Shape := ⟨2, ![65536, 896]⟩
abbrev S65536x128 : Shape := ⟨2, ![65536, 128]⟩
abbrev S65536x15x128 : Shape := ⟨3, ![65536, 15, 128]⟩
abbrev S65536x15 : Shape := ⟨2, ![65536, 15]⟩
abbrev S896x128 : Shape := ⟨2, ![896, 128]⟩
abbrev S896 : Shape := ⟨1, ![896]⟩
abbrev S128x128 : Shape := ⟨2, ![128, 128]⟩
abbrev S_ : Shape := ⟨0, ![]⟩

class Facts : Prop where
  bcast_S_S65536x896 : S_.BroadcastsInDim S65536x896 (![] : Fin 0 → Fin S65536x896.rank)
  reducesTo_S65536x896_S_d0_1 : S65536x896.ReducesTo [0, 1] S_
  h_S_ : 0 < S_.numel
  bcast_S_S65536x128 : S_.BroadcastsInDim S65536x128 (![] : Fin 0 → Fin S65536x128.rank)
  reducesTo_S65536x128_S_d0_1 : S65536x128.ReducesTo [0, 1] S_
  bcast_S_S65536x15x128 : S_.BroadcastsInDim S65536x15x128 (![] : Fin 0 → Fin S65536x15x128.rank)
  reducesTo_S65536x15x128_S_d0_1_2 : S65536x15x128.ReducesTo [0, 1, 2] S_
  bcast_S_S65536x15 : S_.BroadcastsInDim S65536x15 (![] : Fin 0 → Fin S65536x15.rank)
  reducesTo_S65536x15_S_d0_1 : S65536x15.ReducesTo [0, 1] S_
  bcast_S_S896x128 : S_.BroadcastsInDim S896x128 (![] : Fin 0 → Fin S896x128.rank)
  reducesTo_S896x128_S_d0_1 : S896x128.ReducesTo [0, 1] S_
  bcast_S_S896 : S_.BroadcastsInDim S896 (![] : Fin 0 → Fin S896.rank)
  reducesTo_S896_S_d0 : S896.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg7 : FVec F S896x128 .f32) (main_arg8 : FVec F S896 .f32) (main_arg9 : FVec F S128x128 .f32) (main_v33 : IVec S_ 1) : IVec S_ 1 :=
  let main_v34 : FVec F S896x128 .f32 := Host.absf main_arg7
  let main_cst_12 : FVec F S_ .f32 := constant S_ .f32 0x7F800000#32
  let main_v35 : FVec F S896x128 .f32 := broadcastInDim S896x128 ![] bcast_S_S896x128 main_cst_12
  let main_v36 : IVec S896x128 1 := cmpf .olt main_v34 main_v35
  let main_c_13 : IVec S_ 1 := constantI S_ 1 1#1
  let main_v37 : IVec S_ 1 := (fun x v => Host.reduce IntOp.andi x v reducesTo_S896x128_S_d0_1 h_S_) main_v36 main_c_13
  let main_v38 : IVec S_ 1 := andi main_v33 main_v37
  let main_v39 : FVec F S896 .f32 := Host.absf main_arg8
  let main_cst_14 : FVec F S_ .f32 := constant S_ .f32 0x7F800000#32
  let main_v40 : FVec F S896 .f32 := broadcastInDim S896 ![] bcast_S_S896 main_cst_14
  let main_v41 : IVec S896 1 := cmpf .olt main_v39 main_v40
  let main_c_15 : IVec S_ 1 := constantI S_ 1 1#1
  let main_v42 : IVec S_ 1 := (fun x v => Host.reduce IntOp.andi x v reducesTo_S896_S_d0 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  main_v48

def fn_part1 {F : FTy → Type} [FloatOps F] (main_arg4 : FVec F S65536x15 .f32) (main_arg5 : FVec F S896x128 .f32) (main_arg6 : FVec F S896 .f32) (main_arg7 : FVec F S896x128 .f32) (main_arg8 : FVec F S896 .f32) (main_arg9 : FVec F S128x128 .f32) (main_v13 : IVec S_ 1) (main_v16 : IVec S65536x15x128 1) : IVec S_ 1 :=
  let main_c_5 : IVec S_ 1 := constantI S_ 1 1#1
  let main_v17 : IVec S_ 1 := (fun x v => Host.reduce IntOp.andi x v reducesTo_S65536x15x128_S_d0_1_2 h_S_) main_v16 main_c_5
  let main_v18 : IVec S_ 1 := andi main_v13 main_v17
  let main_v19 : FVec F S65536x15 .f32 := Host.absf main_arg4
  let main_cst_6 : FVec F S_ .f32 := constant S_ .f32 0x7F800000#32
  let main_v20 : FVec F S65536x15 .f32 := broadcastInDim S65536x15 ![] bcast_S_S65536x15 main_cst_6
  let main_v21 : IVec S65536x15 1 := cmpf .olt main_v19 main_v20
  let main_c_7 : IVec S_ 1 := constantI S_ 1 1#1
  let main_v22 : IVec S_ 1 := (fun x v => Host.reduce IntOp.andi x v reducesTo_S65536x15_S_d0_1 h_S_) main_v21 main_c_7
  let main_v23 : IVec S_ 1 := andi main_v18 main_v22
  let main_v24 : FVec F S896x128 .f32 := Host.absf main_arg5
  let main_cst_8 : FVec F S_ .f32 := constant S_ .f32 0x7F800000#32
  let main_v25 : FVec F S896x128 .f32 := broadcastInDim S896x128 ![] bcast_S_S896x128 main_cst_8
  let main_v26 : IVec S896x128 1 := cmpf .olt main_v24 main_v25
  let main_c_9 : IVec S_ 1 := constantI S_ 1 1#1
  let main_v27 : IVec S_ 1 := (fun x v => Host.reduce IntOp.andi x v reducesTo_S896x128_S_d0_1 h_S_) main_v26 main_c_9
  let main_v28 : IVec S_ 1 := andi main_v23 main_v27
  let main_v29 : FVec F S896 .f32 := Host.absf main_arg6
  let main_cst_10 : FVec F S_ .f32 := constant S_ .f32 0x7F800000#32
  let main_v30 : FVec F S896 .f32 := broadcastInDim S896 ![] bcast_S_S896 main_cst_10
  let main_v31 : IVec S896 1 := cmpf .olt main_v29 main_v30
  let main_c_11 : IVec S_ 1 := constantI S_ 1 1#1
  let main_v32 : IVec S_ 1 := (fun x v => Host.reduce IntOp.andi x v reducesTo_S896_S_d0 h_S_) main_v31 main_c_11
  let main_v33 : IVec S_ 1 := andi main_v28 main_v32
  fn_part2 (F := F) main_arg7 main_arg8 main_arg9 main_v33

def fn {F : FTy → Type} [FloatOps F] (main_arg0 : FVec F S65536x896 .f32) (main_arg1 : FVec F S65536x128 .f32) (main_arg2 : FVec F S65536x128 .f32) (main_arg3 : FVec F S65536x15x128 .f32) (main_arg4 : FVec F S65536x15 .f32) (main_arg5 : FVec F S896x128 .f32) (main_arg6 : FVec F S896 .f32) (main_arg7 : FVec F S896x128 .f32) (main_arg8 : FVec F S896 .f32) (main_arg9 : FVec F S128x128 .f32) : IVec S_ 1 :=
  let main_v0 : FVec F S65536x896 .f32 := Host.absf main_arg0
  let main_cst : FVec F S_ .f32 := constant S_ .f32 0x7F800000#32
  let main_v1 : FVec F S65536x896 .f32 := broadcastInDim S65536x896 ![] bcast_S_S65536x896 main_cst
  let main_v2 : IVec S65536x896 1 := cmpf .olt main_v0 main_v1
  let main_c : IVec S_ 1 := constantI S_ 1 1#1
  let main_v3 : IVec S_ 1 := (fun x v => Host.reduce IntOp.andi x v reducesTo_S65536x896_S_d0_1 h_S_) main_v2 main_c
  let main_v4 : FVec F S65536x128 .f32 := Host.absf main_arg1
  let main_cst_0 : FVec F S_ .f32 := constant S_ .f32 0x7F800000#32
  let main_v5 : FVec F S65536x128 .f32 := broadcastInDim S65536x128 ![] bcast_S_S65536x128 main_cst_0
  let main_v6 : IVec S65536x128 1 := cmpf .olt main_v4 main_v5
  let main_c_1 : IVec S_ 1 := constantI S_ 1 1#1
  let main_v7 : IVec S_ 1 := (fun x v => Host.reduce IntOp.andi x v reducesTo_S65536x128_S_d0_1 h_S_) main_v6 main_c_1
  let main_v8 : IVec S_ 1 := andi main_v3 main_v7
  let main_v9 : FVec F S65536x128 .f32 := Host.absf main_arg2
  let main_cst_2 : FVec F S_ .f32 := constant S_ .f32 0x7F800000#32
  let main_v10 : FVec F S65536x128 .f32 := broadcastInDim S65536x128 ![] bcast_S_S65536x128 main_cst_2
  let main_v11 : IVec S65536x128 1 := cmpf .olt main_v9 main_v10
  let main_c_3 : IVec S_ 1 := constantI S_ 1 1#1
  let main_v12 : IVec S_ 1 := (fun x v => Host.reduce IntOp.andi x v reducesTo_S65536x128_S_d0_1 h_S_) main_v11 main_c_3
  let main_v13 : IVec S_ 1 := andi main_v8 main_v12
  let main_v14 : FVec F S65536x15x128 .f32 := Host.absf main_arg3
  let main_cst_4 : FVec F S_ .f32 := constant S_ .f32 0x7F800000#32
  let main_v15 : FVec F S65536x15x128 .f32 := broadcastInDim S65536x15x128 ![] bcast_S_S65536x15x128 main_cst_4
  let main_v16 : IVec S65536x15x128 1 := cmpf .olt main_v14 main_v15
  fn_part1 (F := F) main_arg4 main_arg5 main_arg6 main_arg7 main_arg8 main_arg9 main_v13 main_v16
-- ==== Kernel.lean ====
abbrev S65536x896 : Shape := ⟨2, ![65536, 896]⟩
abbrev S65536x128 : Shape := ⟨2, ![65536, 128]⟩
abbrev S65536x15x128 : Shape := ⟨3, ![65536, 15, 128]⟩
abbrev S65536x15 : Shape := ⟨2, ![65536, 15]⟩
abbrev S896x128 : Shape := ⟨2, ![896, 128]⟩
abbrev S896 : Shape := ⟨1, ![896]⟩
abbrev S128x128 : Shape := ⟨2, ![128, 128]⟩
abbrev S1x896 : Shape := ⟨2, ![1, 896]⟩
abbrev S65536x14x128 : Shape := ⟨3, ![65536, 14, 128]⟩
abbrev S256x896 : Shape := ⟨2, ![256, 896]⟩
abbrev S256x128 : Shape := ⟨2, ![256, 128]⟩
abbrev S256x15x128 : Shape := ⟨3, ![256, 15, 128]⟩
abbrev S256x15 : Shape := ⟨2, ![256, 15]⟩
abbrev S256x14x128 : Shape := ⟨3, ![256, 14, 128]⟩
abbrev S256x7x128 : Shape := ⟨3, ![256, 7, 128]⟩
abbrev S256x1x128 : Shape := ⟨3, ![256, 1, 128]⟩
abbrev S3840x128 : Shape := ⟨2, ![3840, 128]⟩
abbrev S256x3x128 : Shape := ⟨3, ![256, 3, 128]⟩
abbrev S256x3 : Shape := ⟨2, ![256, 3]⟩
abbrev S256x3x1 : Shape := ⟨3, ![256, 3, 1]⟩
abbrev S256x5x128 : Shape := ⟨3, ![256, 5, 128]⟩
abbrev S256x5 : Shape := ⟨2, ![256, 5]⟩
abbrev S256x5x1 : Shape := ⟨3, ![256, 5, 1]⟩

abbrev nBuf : Space → Nat
  | .hbm => 13
  | .vmem => 17
  | .smem => 0
  | _ => 0

abbrev bufTy : (tb : Table) → Fin (tcTables nBuf tb) → BufTy
  | .hbm, ⟨0, _⟩ => ⟨S65536x896, .f32⟩
  | .hbm, ⟨1, _⟩ => ⟨S65536x128, .f32⟩
  | .hbm, ⟨2, _⟩ => ⟨S65536x128, .f32⟩
  | .hbm, ⟨3, _⟩ => ⟨S65536x15x128, .f32⟩
  | .hbm, ⟨4, _⟩ => ⟨S65536x15, .f32⟩
  | .hbm, ⟨5, _⟩ => ⟨S896x128, .f32⟩
  | .hbm, ⟨6, _⟩ => ⟨S896, .f32⟩
  | .hbm, ⟨7, _⟩ => ⟨S896x128, .f32⟩
  | .hbm, ⟨8, _⟩ => ⟨S896, .f32⟩
  | .hbm, ⟨9, _⟩ => ⟨S128x128, .f32⟩
  | .hbm, ⟨10, _⟩ => ⟨S1x896, .f32⟩
  | .hbm, ⟨11, _⟩ => ⟨S1x896, .f32⟩
  | .hbm, ⟨12, _⟩ => ⟨S65536x14x128, .f32⟩
  | .local _ .vmem, ⟨0, _⟩ => ⟨S256x896, .f32⟩
  | .local _ .vmem, ⟨1, _⟩ => ⟨S256x896, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x15x128, .f32⟩
  | .local _ .vmem, ⟨7, _⟩ => ⟨S256x15x128, .f32⟩
  | .local _ .vmem, ⟨8, _⟩ => ⟨S256x15, .f32⟩
  | .local _ .vmem, ⟨9, _⟩ => ⟨S256x15, .f32⟩
  | .local _ .vmem, ⟨10, _⟩ => ⟨S896x128, .f32⟩
  | .local _ .vmem, ⟨11, _⟩ => ⟨S1x896, .f32⟩
  | .local _ .vmem, ⟨12, _⟩ => ⟨S896x128, .f32⟩
  | .local _ .vmem, ⟨13, _⟩ => ⟨S1x896, .f32⟩
  | .local _ .vmem, ⟨14, _⟩ => ⟨S128x128, .f32⟩
  | .local _ .vmem, ⟨15, _⟩ => ⟨S256x14x128, .f32⟩
  | .local _ .vmem, ⟨16, _⟩ => ⟨S256x14x128, .f32⟩
  | _, _ => ⟨S65536x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x15x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x15 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S896x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x896 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S896x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x896 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x14x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  shapeCasts_S896_S1x896 : S896.ShapeCasts S1x896
  inb_S256x128_S256x128_0_0 : ∀ a, (![0, 0] : Fin 2 → Nat) a + S256x128.size a ≤ S256x128.size a
  h_S256x128 : 0 < S256x128.numel
  bitsLt_bf16_f32 : FTy.bits .bf16 < FTy.bits .f32
  inb_S896x128_S896x128_0_0 : ∀ a, (![0, 0] : Fin 2 → Nat) a + S896x128.size a ≤ S896x128.size a
  h_S896x128 : 0 < S896x128.numel
  inb_S1x896_S1x896_0_0 : ∀ a, (![0, 0] : Fin 2 → Nat) a + S1x896.size a ≤ S1x896.size a
  h_S1x896 : 0 < S1x896.numel
  shapeCasts_S1x896_S1x896 : S1x896.ShapeCasts S1x896
  broadcasts_S1x896_S256x896 : S1x896.Broadcasts S256x896
  inb_S256x896_S256x896_0_0 : ∀ a, (![0, 0] : Fin 2 → Nat) a + S256x896.size a ≤ S256x896.size a
  h_S256x896 : 0 < S256x896.numel
  shapeCasts_S256x896_S256x7x128 : S256x896.ShapeCasts S256x7x128
  slices_S256x7x128_o0_0_0_S256x1x128 : S256x7x128.Slices ![0, 0, 0] S256x1x128
  shapeCasts_S256x1x128_S256x128 : S256x1x128.ShapeCasts S256x128
  shapeCasts_S256x128_S256x1x128 : S256x128.ShapeCasts S256x1x128
  inb_S256x15x128_S256x15x128_0_0_0 : ∀ a, (![0, 0, 0] : Fin 3 → Nat) a + S256x15x128.size a ≤ S256x15x128.size a
  h_S256x15x128 : 0 < S256x15x128.numel
  inb_S128x128_S128x128_0_0 : ∀ a, (![0, 0] : Fin 2 → Nat) a + S128x128.size a ≤ S128x128.size a
  h_S128x128 : 0 < S128x128.numel
  shapeCasts_S256x15x128_S3840x128 : S256x15x128.ShapeCasts S3840x128
  shapeCasts_S3840x128_S256x15x128 : S3840x128.ShapeCasts S256x15x128
  inb_S256x15_S256x15_0_0 : ∀ a, (![0, 0] : Fin 2 → Nat) a + S256x15.size a ≤ S256x15.size a
  h_S256x15 : 0 < S256x15.numel
  slices_S256x15x128_o0_0_0_S256x3x128 : S256x15x128.Slices ![0, 0, 0] S256x3x128
  slices_S256x15_o0_0_S256x3 : S256x15.Slices ![0, 0] S256x3
  shapeCasts_S256x3_S256x3x1 : S256x3.ShapeCasts S256x3x1
  slices_S256x7x128_o0_1_0_S256x1x128 : S256x7x128.Slices ![0, 1, 0] S256x1x128
  slices_S256x7x128_o0_4_0_S256x1x128 : S256x7x128.Slices ![0, 4, 0] S256x1x128
  broadcasts_S256x1x128_S256x3x128 : S256x1x128.Broadcasts S256x3x128
  broadcasts_S256x3x1_S256x3x128 : S256x3x1.Broadcasts S256x3x128
  slices_S256x15x128_o0_3_0_S256x5x128 : S256x15x128.Slices ![0, 3, 0] S256x5x128
  slices_S256x15_o0_3_S256x5 : S256x15.Slices ![0, 3] S256x5
  shapeCasts_S256x5_S256x5x1 : S256x5.ShapeCasts S256x5x1
  slices_S256x7x128_o0_2_0_S256x1x128 : S256x7x128.Slices ![0, 2, 0] S256x1x128
  slices_S256x7x128_o0_5_0_S256x1x128 : S256x7x128.Slices ![0, 5, 0] S256x1x128
  broadcasts_S256x1x128_S256x5x128 : S256x1x128.Broadcasts S256x5x128
  broadcasts_S256x5x1_S256x5x128 : S256x5x1.Broadcasts S256x5x128
  slices_S256x15x128_o0_8_0_S256x5x128 : S256x15x128.Slices ![0, 8, 0] S256x5x128
  slices_S256x15_o0_8_S256x5 : S256x15.Slices ![0, 8] S256x5
  slices_S256x7x128_o0_3_0_S256x1x128 : S256x7x128.Slices ![0, 3, 0] S256x1x128
  slices_S256x7x128_o0_6_0_S256x1x128 : S256x7x128.Slices ![0, 6, 0] S256x1x128
  concatenates_S256x1x128_S256x3x128_S256x5x128_S256x5x128_S256x14x128_d1 : Shape.Concatenates [S256x1x128, S256x3x128, S256x5x128, S256x5x128] S256x14x128 1
  inb_S256x14x128_S256x14x128_0_0_0 : ∀ a, (![0, 0, 0] : Fin 3 → Nat) a + S256x14x128.size a ≤ S256x14x128.size a
  h_S256x14x128 : 0 < S256x14x128.numel
  dot_S256x128_S896x128_S256x896_1_1_0_0_n_n_wf : DotDims.WF S256x128 S896x128 S256x896 [1] [1] [0] [0] [] []
  dot_S3840x128_S128x128_S3840x128_1_1_0_0_n_n_wf : DotDims.WF S3840x128 S128x128 S3840x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x896.size a ≤ S65536x896.size a
  hwx0_0 : ∀ i : grid0.Coords, EltTy.bits .f32 = 32 ∨ (Rect.block (s := S65536x896) S256x896.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S65536x128.size a
  hwx0_1 : ∀ i : grid0.Coords, EltTy.bits .f32 = 32 ∨ (Rect.block (s := S65536x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S65536x128.size a
  hwx0_2 : ∀ i : grid0.Coords, EltTy.bits .f32 = 32 ∨ (Rect.block (s := S65536x128) S256x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x15x128.size a ≤ S65536x15x128.size a
  hwx0_3 : ∀ i : grid0.Coords, EltTy.bits .f32 = 32 ∨ (Rect.block (s := S65536x15x128) S256x15x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x15.size a ≤ S65536x15.size a
  hwx0_4 : ∀ i : grid0.Coords, EltTy.bits .f32 = 32 ∨ (Rect.block (s := S65536x15) S256x15.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S896x128.size a ≤ S896x128.size a
  hwx0_5 : ∀ i : grid0.Coords, EltTy.bits .f32 = 32 ∨ (Rect.block (s := S896x128) S896x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x896.size a ≤ S1x896.size a
  hwx0_6 : ∀ i : grid0.Coords, EltTy.bits .f32 = 32 ∨ (Rect.block (s := S1x896) S1x896.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S896x128.size a ≤ S896x128.size a
  hwx0_7 : ∀ i : grid0.Coords, EltTy.bits .f32 = 32 ∨ (Rect.block (s := S896x128) S896x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x896.size a ≤ S1x896.size a
  hwx0_8 : ∀ i : grid0.Coords, EltTy.bits .f32 = 32 ∨ (Rect.block (s := S1x896) S1x896.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x14x128.size a ≤ S65536x14x128.size a
  hwx0_10 : ∀ i : grid0.Coords, EltTy.bits .f32 = 32 ∨ (Rect.block (s := S65536x14x128) S256x14x128.size (cc0_transform_10 i) (hinb0_10 i)).WholeWords (EltTy.packing .f32)

variable [Facts₀]

def dot_S256x128_S896x128_S256x896_1_1_0_0_n_n : DotDims S256x128 S896x128 S256x896 where
  lhsContracting := [1]
  rhsContracting := [1]
  lhsNonContracting := [0]
  rhsNonContracting := [0]
  lhsBatch := []
  rhsBatch := []
  wf := dot_S256x128_S896x128_S256x896_1_1_0_0_n_n_wf
def dot_S3840x128_S128x128_S3840x128_1_1_0_0_n_n : DotDims S3840x128 S128x128 S3840x128 where
  lhsContracting := [1]
  rhsContracting := [1]
  lhsNonContracting := [0]
  rhsNonContracting := [0]
  lhsBatch := []
  rhsBatch := []
  wf := dot_S3840x128_S128x128_S3840x128_1_1_0_0_n_n_wf

abbrev win0_0 : Pipeline.Window sig grid0 :=
  Pipeline.Window.ofSpec (Memref.whole main_arg0) S256x896.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x15x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x15.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S896x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1x896.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S896x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v1) S1x896.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v2) S256x14x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S65536x896 : Shape := ⟨2, ![65536, 896]⟩
abbrev S65536x128 : Shape := ⟨2, ![65536, 128]⟩
abbrev S65536x15x128 : Shape := ⟨3, ![65536, 15, 128]⟩
abbrev S65536x15 : Shape := ⟨2, ![65536, 15]⟩
abbrev S896x128 : Shape := ⟨2, ![896, 128]⟩
abbrev S896 : Shape := ⟨1, ![896]⟩
abbrev S128x128 : Shape := ⟨2, ![128, 128]⟩
abbrev S128x896 : Shape := ⟨2, ![128, 896]⟩
abbrev S1x896 : Shape := ⟨2, ![1, 896]⟩
abbrev S_ : Shape := ⟨0, ![]⟩
abbrev S65536x7x128 : Shape := ⟨3, ![65536, 7, 128]⟩
abbrev S65536x1x128 : Shape := ⟨3, ![65536, 1, 128]⟩
abbrev S65536x3x128 : Shape := ⟨3, ![65536, 3, 128]⟩
abbrev S65536x3 : Shape := ⟨2, ![65536, 3]⟩
abbrev S65536x3x1 : Shape := ⟨3, ![65536, 3, 1]⟩
abbrev S65536x5x128 : Shape := ⟨3, ![65536, 5, 128]⟩
abbrev S65536x5 : Shape := ⟨2, ![65536, 5]⟩
abbrev S65536x5x1 : Shape := ⟨3, ![65536, 5, 1]⟩
abbrev S65536x14x128 : Shape := ⟨3, ![65536, 14, 128]⟩

abbrev nBuf : Space → Nat
  | .hbm => 91
  | .vmem => 0
  | .smem => 0
  | _ => 0

abbrev bufTy : (tb : Table) → Fin (tcTables nBuf tb) → BufTy
  | .hbm, ⟨0, _⟩ => ⟨S65536x896, .f32⟩
  | .hbm, ⟨1, _⟩ => ⟨S65536x128, .f32⟩
  | .hbm, ⟨2, _⟩ => ⟨S65536x128, .f32⟩
  | .hbm, ⟨3, _⟩ => ⟨S65536x15x128, .f32⟩
  | .hbm, ⟨4, _⟩ => ⟨S65536x15, .f32⟩
  | .hbm, ⟨5, _⟩ => ⟨S896x128, .f32⟩
  | .hbm, ⟨6, _⟩ => ⟨S896, .f32⟩
  | .hbm, ⟨7, _⟩ => ⟨S896x128, .f32⟩
  | .hbm, ⟨8, _⟩ => ⟨S896, .f32⟩
  | .hbm, ⟨9, _⟩ => ⟨S128x128, .f32⟩
  | .hbm, ⟨10, _⟩ => ⟨S128x896, .f32⟩
  | .hbm, ⟨11, _⟩ => ⟨S65536x896, .f32⟩
  | .hbm, ⟨12, _⟩ => ⟨S1x896, .f32⟩
  | .hbm, ⟨13, _⟩ => ⟨S65536x896, .f32⟩
  | .hbm, ⟨14, _⟩ => ⟨S65536x896, .f32⟩
  | .hbm, ⟨15, _⟩ => ⟨S128x896, .f32⟩
  | .hbm, ⟨16, _⟩ => ⟨S65536x896, .f32⟩
  | .hbm, ⟨17, _⟩ => ⟨S1x896, .f32⟩
  | .hbm, ⟨18, _⟩ => ⟨S65536x896, .f32⟩
  | .hbm, ⟨19, _⟩ => ⟨S65536x896, .f32⟩
  | .hbm, ⟨20, _⟩ => ⟨S65536x896, .f32⟩
  | .hbm, ⟨21, _⟩ => ⟨S65536x896, .f32⟩
  | .hbm, ⟨22, _⟩ => ⟨S_, .f32⟩
  | .hbm, ⟨23, _⟩ => ⟨S65536x896, .f32⟩
  | .hbm, ⟨24, _⟩ => ⟨S65536x896, .f32⟩
  | .hbm, ⟨25, _⟩ => ⟨S_, .f32⟩
  | .hbm, ⟨26, _⟩ => ⟨S65536x896, .f32⟩
  | .hbm, ⟨27, _⟩ => ⟨S65536x896, .f32⟩
  | .hbm, ⟨28, _⟩ => ⟨S65536x896, .f32⟩
  | .hbm, ⟨29, _⟩ => ⟨S65536x896, .f32⟩
  | .hbm, ⟨30, _⟩ => ⟨S65536x896, .f32⟩
  | .hbm, ⟨31, _⟩ => ⟨S65536x7x128, .f32⟩
  | .hbm, ⟨32, _⟩ => ⟨S65536x1x128, .f32⟩
  | .hbm, ⟨33, _⟩ => ⟨S65536x128, .f32⟩
  | .hbm, ⟨34, _⟩ => ⟨S65536x128, .f32⟩
  | .hbm, ⟨35, _⟩ => ⟨S65536x128, .f32⟩
  | .hbm, ⟨36, _⟩ => ⟨S_, .f32⟩
  | .hbm, ⟨37, _⟩ => ⟨S65536x128, .f32⟩
  | .hbm, ⟨38, _⟩ => ⟨S65536x128, .f32⟩
  | .hbm, ⟨39, _⟩ => ⟨S_, .f32⟩
  | .hbm, ⟨40, _⟩ => ⟨S65536x128, .f32⟩
  | .hbm, ⟨41, _⟩ => ⟨S65536x128, .f32⟩
  | .hbm, ⟨42, _⟩ => ⟨S65536x128, .f32⟩
  | .hbm, ⟨43, _⟩ => ⟨S65536x1x128, .f32⟩
  | .hbm, ⟨44, _⟩ => ⟨S65536x15x128, .f32⟩
  | .hbm, ⟨45, _⟩ => ⟨S65536x3x128, .f32⟩
  | .hbm, ⟨46, _⟩ => ⟨S65536x3, .f32⟩
  | .hbm, ⟨47, _⟩ => ⟨S65536x3x1, .f32⟩
  | .hbm, ⟨48, _⟩ => ⟨S65536x1x128, .f32⟩
  | .hbm, ⟨49, _⟩ => ⟨S65536x128, .f32⟩
  | .hbm, ⟨50, _⟩ => ⟨S65536x1x128, .f32⟩
  | .hbm, ⟨51, _⟩ => ⟨S65536x1x128, .f32⟩
  | .hbm, ⟨52, _⟩ => ⟨S65536x128, .f32⟩
  | .hbm, ⟨53, _⟩ => ⟨S65536x1x128, .f32⟩
  | .hbm, ⟨54, _⟩ => ⟨S65536x3x128, .f32⟩
  | .hbm, ⟨55, _⟩ => ⟨S65536x3x128, .f32⟩
  | .hbm, ⟨56, _⟩ => ⟨S65536x3x128, .f32⟩
  | .hbm, ⟨57, _⟩ => ⟨S65536x3x128, .f32⟩
  | .hbm, ⟨58, _⟩ => ⟨S65536x3x128, .f32⟩
  | .hbm, ⟨59, _⟩ => ⟨S65536x3x128, .f32⟩
  | .hbm, ⟨60, _⟩ => ⟨S65536x5x128, .f32⟩
  | .hbm, ⟨61, _⟩ => ⟨S65536x5, .f32⟩
  | .hbm, ⟨62, _⟩ => ⟨S65536x5x1, .f32⟩
  | .hbm, ⟨63, _⟩ => ⟨S65536x1x128, .f32⟩
  | .hbm, ⟨64, _⟩ => ⟨S65536x128, .f32⟩
  | .hbm, ⟨65, _⟩ => ⟨S65536x1x128, .f32⟩
  | .hbm, ⟨66, _⟩ => ⟨S65536x1x128, .f32⟩
  | .hbm, ⟨67, _⟩ => ⟨S65536x128, .f32⟩
  | .hbm, ⟨68, _⟩ => ⟨S65536x1x128, .f32⟩
  | .hbm, ⟨69, _⟩ => ⟨S65536x5x128, .f32⟩
  | .hbm, ⟨70, _⟩ => ⟨S65536x5x128, .f32⟩
  | .hbm, ⟨71, _⟩ => ⟨S65536x5x128, .f32⟩
  | .hbm, ⟨72, _⟩ => ⟨S65536x5x128, .f32⟩
  | .hbm, ⟨73, _⟩ => ⟨S65536x5x128, .f32⟩
  | .hbm, ⟨74, _⟩ => ⟨S65536x5x128, .f32⟩
  | .hbm, ⟨75, _⟩ => ⟨S65536x5x128, .f32⟩
  | .hbm, ⟨76, _⟩ => ⟨S65536x5, .f32⟩
  | .hbm, ⟨77, _⟩ => ⟨S65536x5x1, .f32⟩
  | .hbm, ⟨78, _⟩ => ⟨S65536x1x128, .f32⟩
  | .hbm, ⟨79, _⟩ => ⟨S65536x128, .f32⟩
  | .hbm, ⟨80, _⟩ => ⟨S65536x1x128, .f32⟩
  | .hbm, ⟨81, _⟩ => ⟨S65536x1x128, .f32⟩
  | .hbm, ⟨82, _⟩ => ⟨S65536x128, .f32⟩
  | .hbm, ⟨83, _⟩ => ⟨S65536x1x128, .f32⟩
  | .hbm, ⟨84, _⟩ => ⟨S65536x5x128, .f32⟩
  | .hbm, ⟨85, _⟩ => ⟨S65536x5x128, .f32⟩
  | .hbm, ⟨86, _⟩ => ⟨S65536x5x128, .f32⟩
  | .hbm, ⟨87, _⟩ => ⟨S65536x5x128, .f32⟩
  | .hbm, ⟨88, _⟩ => ⟨S65536x5x128, .f32⟩
  | .hbm, ⟨89, _⟩ => ⟨S65536x5x128, .f32⟩
  | .hbm, ⟨90, _⟩ => ⟨S65536x14x128, .f32⟩
  | _, _ => ⟨S65536x896, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_call0_v5 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_call1_v0 : Ref sig .tc := ⟨.hbm, 34, rfl⟩
abbrev main_call1_v1 : Ref sig .tc := ⟨.hbm, 35, rfl⟩
abbrev main_call1_cst : Ref sig .tc := ⟨.hbm, 36, rfl⟩
abbrev main_call1_v2 : Ref sig .tc := ⟨.hbm, 37, rfl⟩
abbrev main_call1_v3 : Ref sig .tc := ⟨.hbm, 38, rfl⟩
abbrev main_call1_cst_0 : Ref sig .tc := ⟨.hbm, 39, rfl⟩
abbrev main_call1_v4 : Ref sig .tc := ⟨.hbm, 40, rfl⟩
abbrev main_call1_v5 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩

abbrev nD : Nat := 1
abbrev τ : Topo := Topo.v7x

variable {F : FTy → Type} [FloatOps F]

class Facts₀ : Prop where
  transposes_S896x128_S128x896_1_0 : S896x128.Transposes [1, 0] S128x896
  bcast_S896_S1x896_1 : S896.BroadcastsInDim S1x896 (![1] : Fin 1 → Fin S1x896.rank)
  bcast_S1x896_S65536x896_0_1 : S1x896.BroadcastsInDim S65536x896 (![0, 1] : Fin 2 → Fin S65536x896.rank)
  bcast_S_S65536x896 : S_.BroadcastsInDim S65536x896 (![] : Fin 0 → Fin S65536x896.rank)
  shapeCasts_S65536x896_S65536x7x128 : S65536x896.ShapeCasts S65536x7x128
  slices_S65536x7x128_S65536x1x128_0_0_0 : S65536x7x128.Slices ![0, 0, 0] S65536x1x128
  shapeCasts_S65536x1x128_S65536x128 : S65536x1x128.ShapeCasts S65536x128
  bcast_S_S65536x128 : S_.BroadcastsInDim S65536x128 (![] : Fin 0 → Fin S65536x128.rank)
  bcast_S65536x128_S65536x1x128_0_2 : S65536x128.BroadcastsInDim S65536x1x128 (![0, 2] : Fin 2 → Fin S65536x1x128.rank)
  slices_S65536x15x128_S65536x3x128_0_0_0 : S65536x15x128.Slices ![0, 0, 0] S65536x3x128
  slices_S65536x15_S65536x3_0_0 : S65536x15.Slices ![0, 0] S65536x3
  bcast_S65536x3_S65536x3x1_0_1 : S65536x3.BroadcastsInDim S65536x3x1 (![0, 1] : Fin 2 → Fin S65536x3x1.rank)
  slices_S65536x7x128_S65536x1x128_0_1_0 : S65536x7x128.Slices ![0, 1, 0] S65536x1x128
  slices_S65536x7x128_S65536x1x128_0_4_0 : S65536x7x128.Slices ![0, 4, 0] S65536x1x128
  bcast_S65536x1x128_S65536x3x128_0_1_2 : S65536x1x128.BroadcastsInDim S65536x3x128 (![0, 1, 2] : Fin 3 → Fin S65536x3x128.rank)
  bcast_S65536x3x1_S65536x3x128_0_1_2 : S65536x3x1.BroadcastsInDim S65536x3x128 (![0, 1, 2] : Fin 3 → Fin S65536x3x128.rank)
  slices_S65536x15x128_S65536x5x128_0_3_0 : S65536x15x128.Slices ![0, 3, 0] S65536x5x128
  slices_S65536x15_S65536x5_0_3 : S65536x15.Slices ![0, 3] S65536x5
  bcast_S65536x5_S65536x5x1_0_1 : S65536x5.BroadcastsInDim S65536x5x1 (![0, 1] : Fin 2 → Fin S65536x5x1.rank)
  slices_S65536x7x128_S65536x1x128_0_2_0 : S65536x7x128.Slices ![0, 2, 0] S65536x1x128
  slices_S65536x7x128_S65536x1x128_0_5_0 : S65536x7x128.Slices ![0, 5, 0] S65536x1x128
  bcast_S65536x1x128_S65536x5x128_0_1_2 : S65536x1x128.BroadcastsInDim S65536x5x128 (![0, 1, 2] : Fin 3 → Fin S65536x5x128.rank)
  bcast_S65536x5x1_S65536x5x128_0_1_2 : S65536x5x1.BroadcastsInDim S65536x5x128 (![0, 1, 2] : Fin 3 → Fin S65536x5x128.rank)
  slices_S65536x15x128_S65536x5x128_0_8_0 : S65536x15x128.Slices ![0, 8, 0] S65536x5x128
  slices_S65536x15_S65536x5_0_8 : S65536x15.Slices ![0, 8] S65536x5
  slices_S65536x7x128_S65536x1x128_0_3_0 : S65536x7x128.Slices ![0, 3, 0] S65536x1x128
  slices_S65536x7x128_S65536x1x128_0_6_0 : S65536x7x128.Slices ![0, 6, 0] S65536x1x128
  concatenates_S65536x1x128_S65536x3x128_S65536x5x128_S65536x5x128_S65536x14x128_d1 : Shape.Concatenates [S65536x1x128, S65536x3x128, S65536x5x128, S65536x5x128] S65536x14x128 1
  dot_S65536x128_S128x896_S65536x896_1_0_0_1_n_n_wf : DotDims.WF S65536x128 S128x896 S65536x896 [1] [0] [0] [1] [] []
  dot_S65536x15x128_S128x128_S65536x15x128_2_1_01_0_n_n_wf : DotDims.WF S65536x15x128 S128x128 S65536x15x128 [2] [1] [0, 1] [0] [] []

variable [Facts₀]

def dot_S65536x128_S128x896_S65536x896_1_0_0_1_n_n : DotDims S65536x128 S128x896 S65536x896 where
  lhsContracting := [1]
  rhsContracting := [0]
  lhsNonContracting := [0]
  rhsNonContracting := [1]
  lhsBatch := []
  rhsBatch := []
  wf := dot_S65536x128_S128x896_S65536x896_1_0_0_1_n_n_wf
def dot_S65536x15x128_S128x128_S65536x15x128_2_1_01_0_n_n : DotDims S65536x15x128 S128x128 S65536x15x128 where
  lhsContracting := [2]
  rhsContracting := [1]
  lhsNonContracting := [0, 1]
  rhsNonContracting := [0]
  lhsBatch := []
  rhsBatch := []
  wf := dot_S65536x15x128_S128x128_S65536x15x128_2_1_01_0_n_n_wf

class Facts : Prop extends Facts₀ where

variable [Facts]
-- ==== Proof.EdgeFormula.lean ====
/-
  The message of one edge, as a function of that edge's rows alone.

  For one edge the inputs are: a row a of 896 numbers (seven groups of 128 channels), two rows t and h of 128 numbers,
  fifteen rows X d of 128 numbers (the neighbour's features, one row per spherical component d), and fifteen numbers
  rl d.  The weights are shared by all edges: two 896 x 128 matrices with a bias of 896 numbers each, and one
  128 x 128 matrix.

  First a gated update of the 896 channels:
      o j = a j + (t . wrs j + wb j) * silu (h . gw j + gb j),        silu x = x * 1 / (1 + e^(-x)),
  where u . v is the sum over the 128 channels of the products.  Channel j = 128 s + c is read as group s, channel c.
  The neighbour's features are projected, xp d c = X d . xw c.  The result has fourteen rows of 128 channels:
      row 0            silu (o (0, c))
      rows 1 ..  3     o (1, c) * rl (d - 1) + o (4, c) * xp (d - 1) c
      rows 4 ..  8     o (2, c) * rl (d - 1) + o (5, c) * xp (d - 1) c
      rows 9 .. 13     o (3, c) * rl (d - 1) + o (6, c) * xp (d - 1) c
  (degrees 1, 2, 3 keep 3, 5, 5 of their 3, 5, 7 components, which start at 0, 3, 8 among the fifteen; so output row d
  always reads component d - 1).

  Everything is over the extended reals, sums and products as written; no law of arithmetic is used anywhere below,
  the two programs spell this one formula.
-/
import Idealize.ShloMosaic.PureOps.Ideal
import Mathlib.Algebra.BigOperators.Fin

noncomputable section

namespace Cert.Edge

open Idealize.ShloMosaic

/-- x * sigma(x). -/
def silu (x : EReal) : EReal := x * Ideal.logistic x

/-- Channel c of group s among the 896. -/
def chan (s : Fin 7) (c : Fin 128) : Fin 896 := ⟨s.val * 128 + c.val, by omega⟩

/-- A row times a weight matrix's row j, plus the bias. -/
def lin (x : Fin 128 → EReal) (w : Fin 896 → Fin 128 → EReal) (b : Fin 896 → EReal) (j : Fin 896) : EReal :=
  (∑ k : Fin 128, x k * w j k) + b j

/-- The gated update of channel j. -/
def gated (a : Fin 896 → EReal) (t h : Fin 128 → EReal) (wrs : Fin 896 → Fin 128 → EReal) (wb : Fin 896 → EReal)
    (gw : Fin 896 → Fin 128 → EReal) (gb : Fin 896 → EReal) (j : Fin 896) : EReal :=
  a j + lin t wrs wb j * silu (lin h gw gb j)

/-- Component d of the neighbour's features projected onto channel c. -/
def proj (X : Fin 15 → Fin 128 → EReal) (xw : Fin 128 → Fin 128 → EReal) (d : Fin 15) (c : Fin 128) : EReal :=
  ∑ k : Fin 128, X d k * xw c k

/-- The component output row d reads. -/
def comp (d : Fin 14) : Fin 15 := ⟨d.val - 1, by omega⟩

/-- Output row d, channel c, from group s of the update: o (s, c) * rl + o (s + 3, c) * xp. -/
def mix (o : Fin 896 → EReal) (X : Fin 15 → Fin 128 → EReal) (rl : Fin 15 → EReal) (xw : Fin 128 → Fin 128 → EReal)
    (s s' : Fin 7) (d : Fin 14) (c : Fin 128) : EReal :=
  o (chan s c) * rl (comp d) + o (chan s' c) * proj X xw (comp d) c

/-- The fourteen rows of one edge's message. -/
def out (a : Fin 896 → EReal) (t h : Fin 128 → EReal) (X : Fin 15 → Fin 128 → EReal) (rl : Fin 15 → EReal)
    (wrs : Fin 896 → Fin 128 → EReal) (wb : Fin 896 → EReal) (gw : Fin 896 → Fin 128 → EReal) (gb : Fin 896 → EReal)
    (xw : Fin 128 → Fin 128 → EReal) (d : Fin 14) (c : Fin 128) : EReal :=
  if d.val < 1 then silu (gated a t h wrs wb gw gb (chan 0 c))
  else if d.val < 4 then mix (gated a t h wrs wb gw gb) X rl xw 1 4 d c
  else if d.val < 9 then mix (gated a t h wrs wb gw gb) X rl xw 2 5 d c
  else mix (gated a t h wrs wb gw gb) X rl xw 3 6 d c

end Cert.Edge

end
-- ==== Proof.LibMatmulRowRow.lean ====
/-
  A rows-by-rows product read at an entry (a general lemma: nothing here depends on a program).

  For a left factor l of shape [A, K] and a right factor r of shape [C, K], the dimension numbers "contract axis 1 of l
  with axis 1 of r, no batch axis" give a result of shape [A, C].  Into a zero accumulator, over the extended reals,
  its entry (p, q) is the sum over k < K of l (p, k) · r (q, k): the product of l with the transpose of r, the
  transpose never formed.  Any sizes A, K, C.  A printed record with lists [1], [1], [0], [0], [], [] over such shapes
  is `DotDims.transposedRhs A K C` by `rfl`.
-/
import Idealize.ShloMosaic.Lib.ValueIdx
import Idealize.ShloMosaic.PureOps.Ideal.Laws

noncomputable section

namespace Cert.Lib.MatmulRowRow

open Idealize.ShloMosaic Idealize.ShloMosaic.ValueIdx

variable {A K C : Nat}

/-- The left factor is read at the result's row … -/
theorem lhs0 (j : (⟨2, ![A, C]⟩ : Shape).Idx) (q : (DotDims.transposedRhs A K C).contr.Idx) :
    ((DotDims.transposedRhs A K C).lhsIdx j q 0).val = (j 0).val := by
  unfold DotDims.lhsIdx
  rw [dif_neg (show ¬(0 : Fin 2) ∈ (DotDims.transposedRhs A K C).lhsBatch from List.not_mem_nil),
    dif_pos (show (0 : Fin 2) ∈ (DotDims.transposedRhs A K C).lhsNonContracting from List.mem_singleton.mpr rfl)]
  rfl

/-- … and at the contraction coordinate as its column. -/
theorem lhs1 (j : (⟨2, ![A, C]⟩ : Shape).Idx) (q : (DotDims.transposedRhs A K C).contr.Idx) :
    ((DotDims.transposedRhs A K C).lhsIdx j q 1).val = (q ⟨0, Nat.one_pos⟩).val :=
  (DotDims.transposedRhs A K C).lhsIdx_val_of_single rfl j q

/-- The right factor is read at the row that is the result's column … -/
theorem rhs0 (j : (⟨2, ![A, C]⟩ : Shape).Idx) (q : (DotDims.transposedRhs A K C).contr.Idx) :
    ((DotDims.transposedRhs A K C).rhsIdx j q 0).val = (j 1).val := by
  unfold DotDims.rhsIdx
  rw [dif_neg (show ¬(0 : Fin 2) ∈ (DotDims.transposedRhs A K C).rhsBatch from List.not_mem_nil),
    dif_pos (show (0 : Fin 2) ∈ (DotDims.transposedRhs A K C).rhsNonContracting from List.mem_singleton.mpr rfl)]
  rfl

/-- … and at the contraction coordinate as its column. -/
theorem rhs1 (j : (⟨2, ![A, C]⟩ : Shape).Idx) (q : (DotDims.transposedRhs A K C).contr.Idx) :
    ((DotDims.transposedRhs A K C).rhsIdx j q 1).val = (q ⟨0, Nat.one_pos⟩).val :=
  (DotDims.transposedRhs A K C).rhsIdx_val_of_single rfl j q

/-- The contraction at entry (p, q) is the sum over the K products l (p, k) · r (q, k). -/
theorem contr_sum (l : (⟨2, ![A, K]⟩ : Shape).Idx → EReal) (r : (⟨2, ![C, K]⟩ : Shape).Idx → EReal)
    (p : Fin A) (q : Fin C) :
    ∑ s : (DotDims.transposedRhs A K C).contr.Idx,
        l ((DotDims.transposedRhs A K C).lhsIdx (ix2 p q) s) * r ((DotDims.transposedRhs A K C).rhsIdx (ix2 p q) s)
      = ∑ k : Fin K, l (ix2 p k) * r (ix2 q k) := by
  rw [← Equiv.sum_comp (contrEquiv1 (DotDims.transposedRhs A K C) K rfl rfl).symm]
  refine Finset.sum_congr rfl fun k _ => ?_
  have hk := contrEquiv1_symm_val (DotDims.transposedRhs A K C) K rfl rfl k
  have el : (DotDims.transposedRhs A K C).lhsIdx (ix2 p q)
      ((contrEquiv1 (DotDims.transposedRhs A K C) K rfl rfl).symm k) = ix2 p k := funext fun a => Fin.ext (by
    match a with
    | ⟨0, _⟩ => exact lhs0 _ _
    | ⟨1, _⟩ => exact (lhs1 _ _).trans hk)
  have er : (DotDims.transposedRhs A K C).rhsIdx (ix2 p q)
      ((contrEquiv1 (DotDims.transposedRhs A K C) K rfl rfl).symm k) = ix2 q k := funext fun a => Fin.ext (by
    match a with
    | ⟨0, _⟩ => exact rhs0 _ _
    | ⟨1, _⟩ => exact (rhs1 _ _).trans hk)
  rw [el, er]

/-- Entry (p, q) of the product into a zero accumulator. -/
theorem matmul_zero_apply {φ₁ φ₂ : FTy} (prec : Option ContractPrecision)
    (l : FVec Ideal ⟨2, ![A, K]⟩ φ₁) (r : FVec Ideal ⟨2, ![C, K]⟩ φ₂) (p : Fin A) (q : Fin C) :
    FloatOps.matmul (DotDims.transposedRhs A K C) prec l r (constant ⟨2, ![A, C]⟩ .f32 0x00000000#32) (ix2 p q)
      = ∑ k : Fin K, (l (ix2 p k) : EReal) * (r (ix2 q k) : EReal) := by
  rw [Ideal.matmul_constant_zero_apply]
  exact contr_sum l r p q

end Cert.Lib.MatmulRowRow

end
-- ==== Proof.LibUnitAxes.lean ====
/-
  Unit axes in the middle and at the end of a rank-3 shape, read at an index given by coordinates.
  A shape cast that drops or inserts a unit axis keeps the row-major position, so it reads the operand at the
  index with the same non-unit coordinates; a broadcast along a unit axis reads the operand at coordinate 0 there.
  Stated for any extents a, b, c.
-/
import Idealize.ShloMosaic.Lib.ValueLayout

namespace Idealize.ShloMosaic.ValueIdx

open Idealize.ShloMosaic

variable {α : Type}

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`. -/
theorem broadcastTo_ab1_abc_apply {a b c : ℕ} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) := by
  refine broadcastTo_apply x h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array broadcast to `[a, b, c]` reads, at `(i, j, k)`, the operand at `(i, 0, k)`. -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-! ## The compositions a kernel prints: a coordinate row taken out, a column and a row spread over a box -/

/-- Row `o` of the middle axis of an `[a, k, n]` array, sliced out and cast to `[a, n]`, reads the array at
    `(i, o, j)`. -/
theorem shapeCast_slice_axis1_apply {a k n : ℕ} (o : ℕ) (X : (⟨3, ![a, k, n]⟩ : Shape).Idx → α)
    (hs : (⟨3, ![a, k, n]⟩ : Shape).Slices ![0, o, 0] ⟨3, ![a, 1, n]⟩)
    (hc : (⟨3, ![a, 1, n]⟩ : Shape).ShapeCasts ⟨2, ![a, n]⟩) (i : Fin a) (j : Fin n) :
    shapeCast ⟨2, ![a, n]⟩ (extractStridedSlice ⟨3, ![a, 1, n]⟩ ![0, o, 0] X hs) hc (ix2 i j)
      = X (ix3 i ⟨o, Nat.lt_of_lt_of_le (Nat.lt_succ_self o) (hs.2 1)⟩ j) :=
  (shapeCast_a1b_ab_apply _ hc i j).trans (slice3_axis1_apply o X hs i 0 j _ rfl)

/-- An `[a, b]` array cast to a column `[a, b, 1]` and broadcast to `[a, b, c]` reads, at `(i, j, k)`, the array
    at `(i, j)`. -/
theorem broadcastTo_shapeCast_ab1_apply {a b c : ℕ} (v : (⟨2, ![a, b]⟩ : Shape).Idx → α)
    (hc : (⟨2, ![a, b]⟩ : Shape).ShapeCasts ⟨3, ![a, b, 1]⟩)
    (hb : (⟨3, ![a, b, 1]⟩ : Shape).Broadcasts ⟨3, ![a, b, c]⟩) (i : Fin a) (j : Fin b) (k : Fin c) :
    broadcastTo ⟨3, ![a, b, c]⟩ (shapeCast ⟨3, ![a, b, 1]⟩ v hc) hb (ix3 i j k) = v (ix2 i j) :=
  (broadcastTo_ab1_abc_apply _ hb i j k).trans (shapeCast_ab_ab1_apply v hc i j 0)

/-- An `[a, c]` array cast to a row `[a, 1, c]` and broadcast to `[a, b, c]` reads, at `(i, j, k)`, the array at
    `(i, k)`. -/
theorem broadcastTo_shapeCast_a1c_apply {a b c : ℕ} (v : (⟨2, ![a, c]⟩ : Shape).Idx → α)
    (hc : (⟨2, ![a, c]⟩ : Shape).ShapeCasts ⟨3, ![a, 1, c]⟩)
    (hb : (⟨3, ![a, 1, c]⟩ : Shape).Broadcasts ⟨3, ![a, b, c]⟩) (i : Fin a) (j : Fin b) (k : Fin c) :
    broadcastTo ⟨3, ![a, b, c]⟩ (shapeCast ⟨3, ![a, 1, c]⟩ v hc) hb (ix3 i j k) = v (ix2 i k) :=
  (broadcastTo_a1c_abc_apply _ hb i j k).trans (shapeCast_ab_a1b_apply v hc i 0 k)

end Idealize.ShloMosaic.ValueIdx
-- ==== Proof.LibMergeRows.lean ====
/-
  Two leading axes merged into one, and one leading axis split into two, read at an entry (a general lemma: nothing
  here depends on a program).

  An array [A, B, C] and an array [A·B, C] hold the same entries in the same row-major order: entry (a, b, c) of the
  first sits where entry (a·B + b, c) of the second does. So a shape cast from one to the other, in either
  direction, moves no entry: it only renames (a, b) as the row a·B + b. Any sizes A, B, C; the merged extent is a
  parameter N with the row r given together with the equation r = a·B + b, so that a literal extent (16384 for
  16·1024) is met without arithmetic on types.
-/
import Idealize.ShloMosaic.Lib.ValueIdx
import Idealize.ShloMosaic.Lib.Pipeline.Value

noncomputable section

namespace Cert.Lib.MergeRows

open Idealize.ShloMosaic Idealize.ShloMosaic.ValueIdx

/-- [A, B, C] viewed as [N, C]: the entry at row a·B + b, column c, is the entry (a, b, c). -/
theorem merge_apply {α : Type} {A B C N : Nat} (x : (⟨3, ![A, B, C]⟩ : Shape).Idx → α)
    (h : (⟨3, ![A, B, C]⟩ : Shape).ShapeCasts ⟨2, ![N, C]⟩) (a : Fin A) (b : Fin B) (c : Fin C) (r : Fin N)
    (hr : r.val = a.val * B + b.val) :
    shapeCast ⟨2, ![N, C]⟩ x h (ix2 r c) = x (ix3 a b c) := by
  refine shapeCast_apply x h (ix2 r c) (ix3 a b c) ?_
  rw [Shape.rowMajor_val_three, Shape.rowMajor_val_two]
  show (a.val * B + b.val) * C + c.val = r.val * C + c.val
  rw [hr]

/-- [N, C] viewed as [A, B, C]: the entry (a, b, c) is the entry at row a·B + b, column c. -/
theorem split_apply {α : Type} {A B C N : Nat} (x : (⟨2, ![N, C]⟩ : Shape).Idx → α)
    (h : (⟨2, ![N, C]⟩ : Shape).ShapeCasts ⟨3, ![A, B, C]⟩) (a : Fin A) (b : Fin B) (c : Fin C) (r : Fin N)
    (hr : r.val = a.val * B + b.val) :
    shapeCast ⟨3, ![A, B, C]⟩ x h (ix3 a b c) = x (ix2 r c) := by
  refine shapeCast_apply x h (ix3 a b c) (ix2 r c) ?_
  rw [Shape.rowMajor_val_three, Shape.rowMajor_val_two]
  show r.val * C + c.val = (a.val * B + b.val) * C + c.val
  rw [hr]

end Cert.Lib.MergeRows

end
-- ==== Proof.LibSplitCols.lean ====
/-
  The columns of a matrix split into groups, read at an entry (a general lemma: nothing here depends on a program).

  A matrix [A, N] with N = B * C and an array [A, B, C] hold the same entries in the same row-major order: entry
  (a, b, c) of the second sits where entry (a, b * C + c) of the first does.  So the shape cast that splits the columns
  moves no entry.  Any sizes; the column r is given with the equation r = b * C + c, so that a literal extent
  (896 for 7 * 128) is met without arithmetic on types.
-/
import Idealize.ShloMosaic.Lib.ValueIdx
import Idealize.ShloMosaic.Lib.Pipeline.Value

noncomputable section

namespace Cert.Lib.SplitCols

open Idealize.ShloMosaic Idealize.ShloMosaic.ValueIdx

/-- [A, N] viewed as [A, B, C] with N = B * C: the entry (a, b, c) is the entry at row a, column b * C + c. -/
theorem split_apply {α : Type} {A B C N : Nat} (x : (⟨2, ![A, N]⟩ : Shape).Idx → α)
    (h : (⟨2, ![A, N]⟩ : Shape).ShapeCasts ⟨3, ![A, B, C]⟩) (hN : N = B * C) (a : Fin A) (b : Fin B) (c : Fin C) (r : Fin N)
    (hr : r.val = b.val * C + c.val) :
    shapeCast ⟨3, ![A, B, C]⟩ x h (ix3 a b c) = x (ix2 a r) := by
  refine shapeCast_apply x h (ix3 a b c) (ix2 a r) ?_
  rw [Shape.rowMajor_val_three, Shape.rowMajor_val_two]
  show a.val * N + r.val = (a.val * B + b.val) * C + c.val
  rw [hr, hN]
  ring

end Cert.Lib.SplitCols

end
-- ==== Proof.LibConcat4Mid.lean ====
/-
  Four arrays joined along the middle axis, read at an entry (a general lemma: nothing here depends on a program).

  Arrays of shapes [R, n0, C], [R, n1, C], [R, n2, C], [R, n3, C] concatenated along axis 1 give [R, N, C]; row d of
  the result (on axis 1) lies in exactly one piece: piece k when the extents before it, pre, satisfy
  pre <= d < pre + nk, and there it is that piece's row d - pre.  One lemma per piece, the row of the piece given as
  j with the equation d = pre + j.  Any sizes and any element type.
-/
import Idealize.ShloMosaic.Lib.ValueIdx
import Idealize.ShloMosaic.Lib.Pipeline.Value

noncomputable section

namespace Cert.Lib.Concat4Mid

open Idealize.ShloMosaic Idealize.ShloMosaic.ValueIdx

variable {α : Type} {R C n0 n1 n2 n3 N : Nat}

/-- An entry of piece k and the entry of the joined array above it agree off the joined axis. -/
private theorem off_axis {n : Nat} (p : Fin R) (j : Fin n) (d : Fin N) (c : Fin C) :
    ∀ b : Fin 3, b.cast (rfl : (3 : Nat) = 3) ≠ (1 : Fin 3) →
      ((ix3 p j c : (⟨3, ![R, n, C]⟩ : Shape).Idx) b).val = ((ix3 p d c : (⟨3, ![R, N, C]⟩ : Shape).Idx) (b.cast rfl)).val := by
  intro b hb
  match b with
  | ⟨0, _⟩ => rfl
  | ⟨1, _⟩ => exact absurd rfl hb
  | ⟨2, _⟩ => rfl

/-- Row d = j of the joined array is row j of the first piece. -/
theorem piece0 (x0 : (⟨3, ![R, n0, C]⟩ : Shape).Idx → α) (x1 : (⟨3, ![R, n1, C]⟩ : Shape).Idx → α)
    (x2 : (⟨3, ![R, n2, C]⟩ : Shape).Idx → α) (x3 : (⟨3, ![R, n3, C]⟩ : Shape).Idx → α)
    (h : Shape.Concatenates [⟨3, ![R, n0, C]⟩, ⟨3, ![R, n1, C]⟩, ⟨3, ![R, n2, C]⟩, ⟨3, ![R, n3, C]⟩] ⟨3, ![R, N, C]⟩ 1)
    (p : Fin R) (d : Fin N) (c : Fin C) (j : Fin n0) (hd : d.val = j.val) :
    concatenate ⟨3, ![R, N, C]⟩ 1 [⟨⟨3, ![R, n0, C]⟩, x0⟩, ⟨⟨3, ![R, n1, C]⟩, x1⟩, ⟨⟨3, ![R, n2, C]⟩, x2⟩, ⟨⟨3, ![R, n3, C]⟩, x3⟩] h
      (ix3 p d c) = x0 (ix3 p j c) :=
  concatenate_apply_piece (t := ⟨3, ![R, N, C]⟩) 1 [⟨⟨3, ![R, n0, C]⟩, x0⟩, ⟨⟨3, ![R, n1, C]⟩, x1⟩, ⟨⟨3, ![R, n2, C]⟩, x2⟩, ⟨⟨3, ![R, n3, C]⟩, x3⟩] h (ix3 p d c) 0 (by simp) ⟨3, ![R, n0, C]⟩ x0 rfl rfl 0 rfl (ix3 p j c)
    (off_axis p j d c) (by show 0 + j.val = d.val; omega)

/-- Row d = n0 + j of the joined array is row j of the second piece. -/
theorem piece1 (x0 : (⟨3, ![R, n0, C]⟩ : Shape).Idx → α) (x1 : (⟨3, ![R, n1, C]⟩ : Shape).Idx → α)
    (x2 : (⟨3, ![R, n2, C]⟩ : Shape).Idx → α) (x3 : (⟨3, ![R, n3, C]⟩ : Shape).Idx → α)
    (h : Shape.Concatenates [⟨3, ![R, n0, C]⟩, ⟨3, ![R, n1, C]⟩, ⟨3, ![R, n2, C]⟩, ⟨3, ![R, n3, C]⟩] ⟨3, ![R, N, C]⟩ 1)
    (p : Fin R) (d : Fin N) (c : Fin C) (j : Fin n1) (hd : d.val = n0 + j.val) :
    concatenate ⟨3, ![R, N, C]⟩ 1 [⟨⟨3, ![R, n0, C]⟩, x0⟩, ⟨⟨3, ![R, n1, C]⟩, x1⟩, ⟨⟨3, ![R, n2, C]⟩, x2⟩, ⟨⟨3, ![R, n3, C]⟩, x3⟩] h
      (ix3 p d c) = x1 (ix3 p j c) :=
  concatenate_apply_piece (t := ⟨3, ![R, N, C]⟩) 1 [⟨⟨3, ![R, n0, C]⟩, x0⟩, ⟨⟨3, ![R, n1, C]⟩, x1⟩, ⟨⟨3, ![R, n2, C]⟩, x2⟩, ⟨⟨3, ![R, n3, C]⟩, x3⟩] h (ix3 p d c) 1 (by simp) ⟨3, ![R, n1, C]⟩ x1 rfl rfl n0 (by simp) (ix3 p j c)
    (off_axis p j d c) (by show n0 + j.val = d.val; omega)

/-- Row d = n0 + n1 + j of the joined array is row j of the third piece. -/
theorem piece2 (x0 : (⟨3, ![R, n0, C]⟩ : Shape).Idx → α) (x1 : (⟨3, ![R, n1, C]⟩ : Shape).Idx → α)
    (x2 : (⟨3, ![R, n2, C]⟩ : Shape).Idx → α) (x3 : (⟨3, ![R, n3, C]⟩ : Shape).Idx → α)
    (h : Shape.Concatenates [⟨3, ![R, n0, C]⟩, ⟨3, ![R, n1, C]⟩, ⟨3, ![R, n2, C]⟩, ⟨3, ![R, n3, C]⟩] ⟨3, ![R, N, C]⟩ 1)
    (p : Fin R) (d : Fin N) (c : Fin C) (j : Fin n2) (hd : d.val = n0 + n1 + j.val) :
    concatenate ⟨3, ![R, N, C]⟩ 1 [⟨⟨3, ![R, n0, C]⟩, x0⟩, ⟨⟨3, ![R, n1, C]⟩, x1⟩, ⟨⟨3, ![R, n2, C]⟩, x2⟩, ⟨⟨3, ![R, n3, C]⟩, x3⟩] h
      (ix3 p d c) = x2 (ix3 p j c) :=
  concatenate_apply_piece (t := ⟨3, ![R, N, C]⟩) 1 [⟨⟨3, ![R, n0, C]⟩, x0⟩, ⟨⟨3, ![R, n1, C]⟩, x1⟩, ⟨⟨3, ![R, n2, C]⟩, x2⟩, ⟨⟨3, ![R, n3, C]⟩, x3⟩] h (ix3 p d c) 2 (by simp) ⟨3, ![R, n2, C]⟩ x2 rfl rfl (n0 + n1) (by simp) (ix3 p j c)
    (off_axis p j d c) (by show n0 + n1 + j.val = d.val; omega)

/-- Row d = n0 + n1 + n2 + j of the joined array is row j of the fourth piece. -/
theorem piece3 (x0 : (⟨3, ![R, n0, C]⟩ : Shape).Idx → α) (x1 : (⟨3, ![R, n1, C]⟩ : Shape).Idx → α)
    (x2 : (⟨3, ![R, n2, C]⟩ : Shape).Idx → α) (x3 : (⟨3, ![R, n3, C]⟩ : Shape).Idx → α)
    (h : Shape.Concatenates [⟨3, ![R, n0, C]⟩, ⟨3, ![R, n1, C]⟩, ⟨3, ![R, n2, C]⟩, ⟨3, ![R, n3, C]⟩] ⟨3, ![R, N, C]⟩ 1)
    (p : Fin R) (d : Fin N) (c : Fin C) (j : Fin n3) (hd : d.val = n0 + n1 + n2 + j.val) :
    concatenate ⟨3, ![R, N, C]⟩ 1 [⟨⟨3, ![R, n0, C]⟩, x0⟩, ⟨⟨3, ![R, n1, C]⟩, x1⟩, ⟨⟨3, ![R, n2, C]⟩, x2⟩, ⟨⟨3, ![R, n3, C]⟩, x3⟩] h
      (ix3 p d c) = x3 (ix3 p j c) :=
  concatenate_apply_piece (t := ⟨3, ![R, N, C]⟩) 1 [⟨⟨3, ![R, n0, C]⟩, x0⟩, ⟨⟨3, ![R, n1, C]⟩, x1⟩, ⟨⟨3, ![R, n2, C]⟩, x2⟩, ⟨⟨3, ![R, n3, C]⟩, x3⟩] h (ix3 p d c) 3 (by simp) ⟨3, ![R, n3, C]⟩ x3 rfl rfl (n0 + n1 + n2) (by simp; omega) (ix3 p j c)
    (off_axis p j d c) (by show n0 + n1 + n2 + j.val = d.val; omega)

end Cert.Lib.Concat4Mid

end
-- ==== Proof.KernelEdge.lean ====
/-
  The kernel's body, read at one entry of its block of 256 edges, is the edge formula of that edge's rows.

  The body works on 256 edges at a time.  Its gated update is two products of a [256, 128] block with the rows of a
  [896, 128] weight matrix (contracting the 128 channels of both, so no transpose is formed), each plus a bias kept as
  one row [1, 896] and repeated down the block; silu is x times the logistic of x.  The 896 channels are then read as
  seven groups of 128.  The neighbour's features [256, 15, 128] are laid out as 3840 rows, multiplied with the rows of
  the [128, 128] matrix, and laid out again as [256, 15, 128]: row 15 p + d' of the product is edge p, component d'.
  The fourteen output rows are four pieces joined along the middle axis; a piece takes one group of the update as a
  row repeated over the piece's components, the matching columns of rl as a column repeated over the channels, and
  the matching components of the projection.  Each of these is read at an entry; nothing is computed.
-/
import proofs.«157935_j50208167690483_1_alg».proof.Proof.Gen.KernelIdeal.Skeleton
import proofs.«157935_j50208167690483_1_alg».proof.Proof.EdgeFormula
import proofs.«157935_j50208167690483_1_alg».proof.Proof.LibMatmulRowRow
import proofs.«157935_j50208167690483_1_alg».proof.Proof.LibUnitAxes
import proofs.«157935_j50208167690483_1_alg».proof.Proof.LibMergeRows
import proofs.«157935_j50208167690483_1_alg».proof.Proof.LibSplitCols
import proofs.«157935_j50208167690483_1_alg».proof.Proof.LibConcat4Mid
import Idealize.ShloMosaic.Lib.ValueLayout
import Idealize.ShloMosaic.Lib.Pipeline.Value

noncomputable section

namespace Cert.KernelEdge

open Cert.KernelIdeal Cert.KernelIdeal.Gen Idealize.ShloMosaic Idealize.ShloMosaic.ValueIdx

/-! ## The gated update -/

/-- A block of rows times the rows of a weight matrix, plus the bias row repeated down the block, at (p, j):
    the row's products with weight row j summed, plus bias j. -/
theorem lin_apply (x : FVec Ideal S256x128 .f32) (w : FVec Ideal S896x128 .f32) (b : FVec Ideal S1x896 .f32)
    (hb : FTy.bits .bf16 < FTy.bits .f32) (hsc : S1x896.ShapeCasts S1x896) (hbc : S1x896.Broadcasts S256x896)
    (p : Fin 256) (j : Fin 896) :
    addf (matmul dot_S256x128_S896x128_S256x896_1_1_0_0_n_n none (truncf .bf16 x hb) (truncf .bf16 w hb)
        (constant S256x896 .f32 0x00000000#32)) (broadcastTo S256x896 (shapeCast S1x896 b hsc) hbc) (ix2 p j)
      = Cert.Edge.lin (fun k => x (ix2 p k)) (fun j k => w (ix2 j k)) (fun j => b (ix2 (0 : Fin 1) j)) j := by
  rw [shapeCast_self]
  show matmul dot_S256x128_S896x128_S256x896_1_1_0_0_n_n none (truncf .bf16 x hb) (truncf .bf16 w hb)
        (constant S256x896 .f32 0x00000000#32) (ix2 p j) + broadcastTo S256x896 b hbc (ix2 p j) = _
  rw [broadcastTo_1b_ab_apply b hbc p j]
  exact congrArg (· + b (ix2 (0 : Fin 1) j))
    (Cert.Lib.MatmulRowRow.matmul_zero_apply (A := 256) (K := 128) (C := 896) none (truncf .bf16 x hb) (truncf .bf16 w hb) p j)

/-- The 896 updated channels of the block, as seven groups of 128, at (p, s, c). -/
theorem pay2_apply (t : FVec Ideal S256x128 .f32) (wrs : FVec Ideal S896x128 .f32) (h : FVec Ideal S256x128 .f32)
    (gw : FVec Ideal S896x128 .f32) (wb gb : FVec Ideal S1x896 .f32) (a : FVec Ideal S256x896 .f32)
    (p : Fin 256) (s : Fin 7) (c : Fin 128) :
    k0_pay2 (F := Ideal) t wrs h gw wb gb a (ix3 p s c)
      = Cert.Edge.gated (fun j => a (ix2 p j)) (fun k => t (ix2 p k)) (fun k => h (ix2 p k)) (fun j k => wrs (ix2 j k))
          (fun j => wb (ix2 (0 : Fin 1) j)) (fun j k => gw (ix2 j k)) (fun j => gb (ix2 (0 : Fin 1) j)) (Cert.Edge.chan s c) := by
  unfold k0_pay2
  refine (Cert.Lib.SplitCols.split_apply (A := 256) (B := 7) (C := 128) (N := 896) _ _ (by norm_num) p s c (Cert.Edge.chan s c) rfl).trans ?_
  unfold Cert.Edge.gated Cert.Edge.silu
  rw [← lin_apply t wrs wb _ _ _ p (Cert.Edge.chan s c), ← lin_apply h gw gb _ _ _ p (Cert.Edge.chan s c)]
  rfl

/-- Group 0 of the update through silu, kept as a one-row piece, at (p, 0, c). -/
theorem pay3_apply (t : FVec Ideal S256x128 .f32) (wrs : FVec Ideal S896x128 .f32) (h : FVec Ideal S256x128 .f32)
    (gw : FVec Ideal S896x128 .f32) (wb gb : FVec Ideal S1x896 .f32) (a : FVec Ideal S256x896 .f32)
    (p : Fin 256) (u : Fin 1) (c : Fin 128) :
    k0_pay3 (F := Ideal) t wrs h gw wb gb a (ix3 p u c)
      = Cert.Edge.silu (Cert.Edge.gated (fun j => a (ix2 p j)) (fun k => t (ix2 p k)) (fun k => h (ix2 p k)) (fun j k => wrs (ix2 j k))
          (fun j => wb (ix2 (0 : Fin 1) j)) (fun j k => gw (ix2 j k)) (fun j => gb (ix2 (0 : Fin 1) j)) (Cert.Edge.chan 0 c)) := by
  unfold k0_pay3
  refine (shapeCast_ab_a1b_apply _ _ p u c).trans ?_
  unfold Cert.Edge.silu
  have e : shapeCast S256x128 (extractStridedSlice S256x1x128 ![0, 0, 0] (k0_pay2 (F := Ideal) t wrs h gw wb gb a)
        slices_S256x7x128_o0_0_0_S256x1x128) shapeCasts_S256x1x128_S256x128 (ix2 p c)
      = Cert.Edge.gated (fun j => a (ix2 p j)) (fun k => t (ix2 p k)) (fun k => h (ix2 p k)) (fun j k => wrs (ix2 j k))
          (fun j => wb (ix2 (0 : Fin 1) j)) (fun j k => gw (ix2 j k)) (fun j => gb (ix2 (0 : Fin 1) j)) (Cert.Edge.chan 0 c) :=
    (shapeCast_slice_axis1_apply 0 (k0_pay2 (F := Ideal) t wrs h gw wb gb a) slices_S256x7x128_o0_0_0_S256x1x128
      shapeCasts_S256x1x128_S256x128 p c).trans (pay2_apply t wrs h gw wb gb a p 0 c)
  show _ * Ideal.logistic _ = _
  rw [e]

/-! ## The projection of the neighbour's features -/

/-- The block's 3840 feature rows times the rows of the 128 x 128 matrix, laid out by edge and component, at (p, d', c). -/
theorem pay4_apply (X : FVec Ideal S256x15x128 .f32) (xw : FVec Ideal S128x128 .f32) (p : Fin 256) (d' : Fin 15) (c : Fin 128) :
    k0_pay4 (F := Ideal) X xw (ix3 p d' c)
      = Cert.Edge.proj (fun d k => X (ix3 p d k)) (fun c k => xw (ix2 c k)) d' c := by
  unfold k0_pay4
  refine (Cert.Lib.MergeRows.split_apply (A := 256) (B := 15) (C := 128) (N := 3840) _ _ p d' c
    ⟨p.val * 15 + d'.val, by omega⟩ rfl).trans ?_
  refine (Cert.Lib.MatmulRowRow.matmul_zero_apply (A := 3840) (K := 128) (C := 128) none _ _ ⟨p.val * 15 + d'.val, by omega⟩ c).trans ?_
  unfold Cert.Edge.proj
  refine Finset.sum_congr rfl fun k _ => ?_
  exact congrArg (· * xw (ix2 c k))
    (Cert.Lib.MergeRows.merge_apply (A := 256) (B := 15) (C := 128) (N := 3840) X shapeCasts_S256x15x128_S3840x128 p d' k
      ⟨p.val * 15 + d'.val, by omega⟩ rfl)

/-! ## One degree's piece -/

/-- A piece of m components starting at component s0: group g1 of the update times the columns of rl, plus group g2
    times the projected components, at (p, j, c) with k = s0 + j the component read. -/
theorem mix_apply {m : Nat} (g1 g2 : Fin 7) (s0 : Nat) (v23 : FVec Ideal S256x7x128 .f32) (v35 : FVec Ideal S256x15x128 .f32)
    (v36 : FVec Ideal S256x15 .f32)
    (hs1 : S256x7x128.Slices ![0, g1.val, 0] S256x1x128) (hs2 : S256x7x128.Slices ![0, g2.val, 0] S256x1x128)
    (hc1 : S256x1x128.ShapeCasts S256x128) (hc2 : S256x128.ShapeCasts S256x1x128)
    (hb1 : S256x1x128.Broadcasts ⟨3, ![256, m, 128]⟩)
    (hsr : S256x15.Slices ![0, s0] ⟨2, ![256, m]⟩) (hcr : (⟨2, ![256, m]⟩ : Shape).ShapeCasts ⟨3, ![256, m, 1]⟩)
    (hbr : (⟨3, ![256, m, 1]⟩ : Shape).Broadcasts ⟨3, ![256, m, 128]⟩)
    (hsx : S256x15x128.Slices ![0, s0, 0] ⟨3, ![256, m, 128]⟩)
    (p : Fin 256) (j : Fin m) (c : Fin 128) (k : Fin 15) (hk : k.val = s0 + j.val) :
    addf (mulf (broadcastTo ⟨3, ![256, m, 128]⟩ (shapeCast S256x1x128 (shapeCast S256x128
              (extractStridedSlice S256x1x128 ![0, g1.val, 0] v23 hs1) hc1) hc2) hb1)
            (broadcastTo ⟨3, ![256, m, 128]⟩ (shapeCast ⟨3, ![256, m, 1]⟩ (extractStridedSlice ⟨2, ![256, m]⟩ ![0, s0] v36 hsr) hcr) hbr))
         (mulf (broadcastTo ⟨3, ![256, m, 128]⟩ (shapeCast S256x1x128 (shapeCast S256x128
              (extractStridedSlice S256x1x128 ![0, g2.val, 0] v23 hs2) hc1) hc2) hb1)
            (extractStridedSlice ⟨3, ![256, m, 128]⟩ ![0, s0, 0] v35 hsx)) (ix3 p j c)
      = v23 (ix3 p g1 c) * v36 (ix2 p k) + v23 (ix3 p g2 c) * v35 (ix3 p k c) := by
  have e1 := (broadcastTo_shapeCast_a1c_apply (shapeCast S256x128 (extractStridedSlice S256x1x128 ![0, g1.val, 0] v23 hs1) hc1)
    hc2 hb1 p j c).trans (shapeCast_slice_axis1_apply g1.val v23 hs1 hc1 p c)
  have e2 := (broadcastTo_shapeCast_ab1_apply (extractStridedSlice ⟨2, ![256, m]⟩ ![0, s0] v36 hsr) hcr hbr p j c).trans
    (slice2_axis1_apply s0 v36 hsr p j k hk)
  have e3 := (broadcastTo_shapeCast_a1c_apply (shapeCast S256x128 (extractStridedSlice S256x1x128 ![0, g2.val, 0] v23 hs2) hc1)
    hc2 hb1 p j c).trans (shapeCast_slice_axis1_apply g2.val v23 hs2 hc1 p c)
  have e4 := slice3_axis1_apply s0 v35 hsx p j c k hk
  show _ * _ + _ * _ = _
  rw [e1, e2, e3, e4]

/-! ## The fourteen rows -/

/-- The joined payload at (p, d, c): row 0 is the silu piece, rows 1..3, 4..8, 9..13 the three degrees' pieces, each
    reading component d - 1. -/
theorem pay1_apply (v23 : FVec Ideal S256x7x128 .f32) (v28 : FVec Ideal S256x1x128 .f32) (v35 : FVec Ideal S256x15x128 .f32)
    (v36 : FVec Ideal S256x15 .f32) (p : Fin 256) (d : Fin 14) (c : Fin 128) :
    k0_pay1 (F := Ideal) v23 v28 v35 v36 (ix3 p d c)
      = if d.val < 1 then v28 (ix3 p (0 : Fin 1) c)
        else if d.val < 4 then v23 (ix3 p 1 c) * v36 (ix2 p (Cert.Edge.comp d)) + v23 (ix3 p 4 c) * v35 (ix3 p (Cert.Edge.comp d) c)
        else if d.val < 9 then v23 (ix3 p 2 c) * v36 (ix2 p (Cert.Edge.comp d)) + v23 (ix3 p 5 c) * v35 (ix3 p (Cert.Edge.comp d) c)
        else v23 (ix3 p 3 c) * v36 (ix2 p (Cert.Edge.comp d)) + v23 (ix3 p 6 c) * v35 (ix3 p (Cert.Edge.comp d) c) := by
  unfold k0_pay1
  by_cases h1 : d.val < 1
  · rw [if_pos h1]
    exact Cert.Lib.Concat4Mid.piece0 _ _ _ _ _ p d c (0 : Fin 1) (by show d.val = 0; omega)
  · rw [if_neg h1]
    by_cases h4 : d.val < 4
    · rw [if_pos h4]
      refine (Cert.Lib.Concat4Mid.piece1 _ _ _ _ _ p d c ⟨d.val - 1, by omega⟩ (by show d.val = 1 + (d.val - 1); omega)).trans ?_
      exact mix_apply 1 4 0 v23 v35 v36 _ _ _ _ _ _ _ _ _ p ⟨d.val - 1, by omega⟩ c (Cert.Edge.comp d)
        (by show d.val - 1 = 0 + (d.val - 1); omega)
    · rw [if_neg h4]
      by_cases h9 : d.val < 9
      · rw [if_pos h9]
        refine (Cert.Lib.Concat4Mid.piece2 _ _ _ _ _ p d c ⟨d.val - 4, by omega⟩ (by show d.val = 1 + 3 + (d.val - 4); omega)).trans ?_
        exact mix_apply 2 5 3 v23 v35 v36 _ _ _ _ _ _ _ _ _ p ⟨d.val - 4, by omega⟩ c (Cert.Edge.comp d)
          (by show d.val - 1 = 3 + (d.val - 4); omega)
      · rw [if_neg h9]
        have hd : d.val < 14 := d.isLt
        refine (Cert.Lib.Concat4Mid.piece3 _ _ _ _ _ p d c ⟨d.val - 9, by omega⟩ (by show d.val = 1 + 3 + 5 + (d.val - 9); omega)).trans ?_
        exact mix_apply 3 6 8 v23 v35 v36 _ _ _ _ _ _ _ _ _ p ⟨d.val - 9, by omega⟩ c (Cert.Edge.comp d)
          (by show d.val - 1 = 8 + (d.val - 9); omega)

/-! ## The body's result for the block -/

/-- The body's payload of its loaded blocks at (p, d, c) is the edge formula of row p of the blocks. -/
theorem body_apply (x0 : FVec Ideal S256x896 .f32) (x1 x2 : FVec Ideal S256x128 .f32) (x3 : FVec Ideal S256x15x128 .f32)
    (x4 : FVec Ideal S256x15 .f32) (x5 : FVec Ideal S896x128 .f32) (x6 : FVec Ideal S1x896 .f32) (x7 : FVec Ideal S896x128 .f32)
    (x8 : FVec Ideal S1x896 .f32) (x9 : FVec Ideal S128x128 .f32) (p : Fin 256) (d : Fin 14) (c : Fin 128) :
    k0_pay1 (F := Ideal) (k0_pay2 x1 x5 x2 x7 x6 x8 x0) (k0_pay3 x1 x5 x2 x7 x6 x8 x0) (k0_pay4 x3 x9) x4 (ix3 p d c)
      = Cert.Edge.out (fun j => x0 (ix2 p j)) (fun k => x1 (ix2 p k)) (fun k => x2 (ix2 p k)) (fun d' k => x3 (ix3 p d' k))
          (fun d' => x4 (ix2 p d')) (fun j k => x5 (ix2 j k)) (fun j => x6 (ix2 (0 : Fin 1) j)) (fun j k => x7 (ix2 j k))
          (fun j => x8 (ix2 (0 : Fin 1) j)) (fun c' k => x9 (ix2 c' k)) d c := by
  rw [pay1_apply]
  unfold Cert.Edge.out Cert.Edge.mix
  simp only [pay2_apply, pay3_apply, pay4_apply]

end Cert.KernelEdge

end
-- ==== Proof.EdgeArray.lean ====
/-
  The whole result array: entry (e, d, c) is the edge formula of row e of the per-edge inputs and the shared weights.
-/
import proofs.«157935_j50208167690483_1_alg».proof.Proof.EdgeFormula
import Idealize.ShloMosaic.Lib.ValueIdx

noncomputable section

namespace Cert.Edge

open Idealize.ShloMosaic Idealize.ShloMosaic.ValueIdx

/-- Edge e's message at row d, channel c, from the 65536-edge input arrays. -/
def ofArrays (a0 : (⟨2, ![65536, 896]⟩ : Shape).Idx → EReal) (a1 a2 : (⟨2, ![65536, 128]⟩ : Shape).Idx → EReal)
    (a3 : (⟨3, ![65536, 15, 128]⟩ : Shape).Idx → EReal) (a4 : (⟨2, ![65536, 15]⟩ : Shape).Idx → EReal)
    (a5 : (⟨2, ![896, 128]⟩ : Shape).Idx → EReal) (a6 : (⟨1, ![896]⟩ : Shape).Idx → EReal)
    (a7 : (⟨2, ![896, 128]⟩ : Shape).Idx → EReal) (a8 : (⟨1, ![896]⟩ : Shape).Idx → EReal)
    (a9 : (⟨2, ![128, 128]⟩ : Shape).Idx → EReal) (e : Fin 65536) (d : Fin 14) (c : Fin 128) : EReal :=
  out (fun j => a0 (ix2 e j)) (fun k => a1 (ix2 e k)) (fun k => a2 (ix2 e k)) (fun d' k => a3 (ix3 e d' k))
    (fun d' => a4 (ix2 e d')) (fun j k => a5 (ix2 j k)) (fun j => a6 (ix1 j)) (fun j k => a7 (ix2 j k))
    (fun j => a8 (ix1 j)) (fun c' k => a9 (ix2 c' k)) d c

/-- The [65536, 14, 128] array of all edges' messages. -/
def G (a0 : (⟨2, ![65536, 896]⟩ : Shape).Idx → EReal) (a1 a2 : (⟨2, ![65536, 128]⟩ : Shape).Idx → EReal)
    (a3 : (⟨3, ![65536, 15, 128]⟩ : Shape).Idx → EReal) (a4 : (⟨2, ![65536, 15]⟩ : Shape).Idx → EReal)
    (a5 : (⟨2, ![896, 128]⟩ : Shape).Idx → EReal) (a6 : (⟨1, ![896]⟩ : Shape).Idx → EReal)
    (a7 : (⟨2, ![896, 128]⟩ : Shape).Idx → EReal) (a8 : (⟨1, ![896]⟩ : Shape).Idx → EReal)
    (a9 : (⟨2, ![128, 128]⟩ : Shape).Idx → EReal) : (⟨3, ![65536, 14, 128]⟩ : Shape).Idx → EReal :=
  fun i => ofArrays a0 a1 a2 a3 a4 a5 a6 a7 a8 a9 (i 0) (i 1) (i 2)

end Cert.Edge

end
-- ==== Proof.KernelArray.lean ====
/-
  From the blocks to the array: after the run the kernel's result array holds, at (e, d, c), the edge formula of edge e.

  The grid has 256 points; point t handles edges 256 t .. 256 t + 255.  Its block of each per-edge input is rows
  256 t .. of that array (all other block indices are 0), the weights' blocks are the whole weight arrays, and the two
  biases arrive as the one-row arrays [1, 896] that @main makes of the [896] vectors before the call.  So row p of the
  blocks at point t is row 256 t + p of the arrays, the body's result for the block is the block of the whole-array
  function G at the same rows, and the 256 output blocks tile the [65536, 14, 128] result: it ends holding G.
-/
import proofs.«157935_j50208167690483_1_alg».proof.Proof.Gen.KernelIdeal.Value
import proofs.«157935_j50208167690483_1_alg».proof.Proof.KernelEdge
import proofs.«157935_j50208167690483_1_alg».proof.Proof.EdgeArray
import Idealize.ShloMosaic.Lib.StableHlo.Run
import Idealize.ShloMosaic.Lib.ValueLayout

set_option maxRecDepth 16384

noncomputable section

namespace Cert.KernelArray

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-! ## The index maps over the grid -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 3) = t.val ∧ win0_3.index t (1 : Fin 3) = 0 ∧ win0_3.index t (2 : Fin 3) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 3) = t.val ∧ win0_10.index t (1 : Fin 3) = 0 ∧ win0_10.index t (2 : Fin 3) = 0 :=
  (by decide +kernel : ∀ t : Fin grid0.N, _)

/-! ## The biases as @main lays them out -/

/-- The one-row array the first bias is staged from is the [896] vector, entry for entry. -/
theorem bias0 (c : Dev nD) (j : Fin 896) :
    (V m c main_v0 : S1x896.Idx → EReal) (ix2 (0 : Fin 1) j) = (V m c main_arg6 : S896.Idx → EReal) (ix1 j) := by
  have e : (V m c main_v0 : S1x896.Idx → EReal) = shapeCast S1x896 (V m c main_arg6 : S896.Idx → EReal) shapeCasts_S896_S1x896 := by
    dsimp only [V, hostOps0]
    after_results
    rfl
  rw [e]
  exact shapeCast_a_1a_apply _ _ _ j

/-- The same for the second bias. -/
theorem bias1 (c : Dev nD) (j : Fin 896) :
    (V m c main_v1 : S1x896.Idx → EReal) (ix2 (0 : Fin 1) j) = (V m c main_arg8 : S896.Idx → EReal) (ix1 j) := by
  have e : (V m c main_v1 : S1x896.Idx → EReal) = shapeCast S1x896 (V m c main_arg8 : S896.Idx → EReal) shapeCasts_S896_S1x896 := by
    dsimp only [V, hostOps0]
    after_results
    rfl
  rw [e]
  exact shapeCast_a_1a_apply _ _ _ j

/-! ## The input blocks at a point, by their literal types -/

abbrev b0 (c : Dev nD) (t : Fin cfg0.N) : FVec Ideal S256x896 .f32 := iblk m c 0 t
abbrev b1 (c : Dev nD) (t : Fin cfg0.N) : FVec Ideal S256x128 .f32 := iblk m c 1 t
abbrev b2 (c : Dev nD) (t : Fin cfg0.N) : FVec Ideal S256x128 .f32 := iblk m c 2 t
abbrev b3 (c : Dev nD) (t : Fin cfg0.N) : FVec Ideal S256x15x128 .f32 := iblk m c 3 t
abbrev b4 (c : Dev nD) (t : Fin cfg0.N) : FVec Ideal S256x15 .f32 := iblk m c 4 t
abbrev b5 (c : Dev nD) (t : Fin cfg0.N) : FVec Ideal S896x128 .f32 := iblk m c 5 t
abbrev b6 (c : Dev nD) (t : Fin cfg0.N) : FVec Ideal S1x896 .f32 := iblk m c 6 t
abbrev b7 (c : Dev nD) (t : Fin cfg0.N) : FVec Ideal S896x128 .f32 := iblk m c 7 t
abbrev b8 (c : Dev nD) (t : Fin cfg0.N) : FVec Ideal S1x896 .f32 := iblk m c 8 t
abbrev b9 (c : Dev nD) (t : Fin cfg0.N) : FVec Ideal S128x128 .f32 := iblk m c 9 t

/-- Row p of the first input's block at point t is row 256 t + p of the array. -/
theorem blk0 (c : Dev nD) (t : Fin cfg0.N) (p : Fin 256) (j : Fin 896) (e : Fin 65536) (he : e.val = t.val * 256 + p.val) :
    b0 m c t (ix2 p j) = (V m c main_arg0 : S65536x896.Idx → EReal) (ix2 e j) := by
  obtain ⟨e0, e1⟩ := idx0 t
  show V m c main_arg0 (((cfg0.win 0).blk t).view.emb (ix2 p j)) = V m c main_arg0 (ix2 e j)
  refine congrArg (V m c main_arg0) (funext fun a => Fin.ext ?_)
  match a with
  | ⟨0, _⟩ => show win0_0.index t (0 : Fin 2) * 256 + 1 * p.val = e.val; rw [e0, he]; omega
  | ⟨1, _⟩ => show win0_0.index t (1 : Fin 2) * 896 + 1 * j.val = j.val; rw [e1]; omega

theorem blk1 (c : Dev nD) (t : Fin cfg0.N) (p : Fin 256) (k : Fin 128) (e : Fin 65536) (he : e.val = t.val * 256 + p.val) :
    b1 m c t (ix2 p k) = (V m c main_arg1 : S65536x128.Idx → EReal) (ix2 e k) := by
  obtain ⟨e0, e1⟩ := idx1 t
  show V m c main_arg1 (((cfg0.win 1).blk t).view.emb (ix2 p k)) = V m c main_arg1 (ix2 e k)
  refine congrArg (V m c main_arg1) (funext fun a => Fin.ext ?_)
  match a with
  | ⟨0, _⟩ => show win0_1.index t (0 : Fin 2) * 256 + 1 * p.val = e.val; rw [e0, he]; omega
  | ⟨1, _⟩ => show win0_1.index t (1 : Fin 2) * 128 + 1 * k.val = k.val; rw [e1]; omega

theorem blk2 (c : Dev nD) (t : Fin cfg0.N) (p : Fin 256) (k : Fin 128) (e : Fin 65536) (he : e.val = t.val * 256 + p.val) :
    b2 m c t (ix2 p k) = (V m c main_arg2 : S65536x128.Idx → EReal) (ix2 e k) := by
  obtain ⟨e0, e1⟩ := idx2 t
  show V m c main_arg2 (((cfg0.win 2).blk t).view.emb (ix2 p k)) = V m c main_arg2 (ix2 e k)
  refine congrArg (V m c main_arg2) (funext fun a => Fin.ext ?_)
  match a with
  | ⟨0, _⟩ => show win0_2.index t (0 : Fin 2) * 256 + 1 * p.val = e.val; rw [e0, he]; omega
  | ⟨1, _⟩ => show win0_2.index t (1 : Fin 2) * 128 + 1 * k.val = k.val; rw [e1]; omega

theorem blk3 (c : Dev nD) (t : Fin cfg0.N) (p : Fin 256) (d' : Fin 15) (k : Fin 128) (e : Fin 65536) (he : e.val = t.val * 256 + p.val) :
    b3 m c t (ix3 p d' k) = (V m c main_arg3 : S65536x15x128.Idx → EReal) (ix3 e d' k) := by
  obtain ⟨e0, e1, e2⟩ := idx3 t
  show V m c main_arg3 (((cfg0.win 3).blk t).view.emb (ix3 p d' k)) = V m c main_arg3 (ix3 e d' k)
  refine congrArg (V m c main_arg3) (funext fun a => Fin.ext ?_)
  match a with
  | ⟨0, _⟩ => show win0_3.index t (0 : Fin 3) * 256 + 1 * p.val = e.val; rw [e0, he]; omega
  | ⟨1, _⟩ => show win0_3.index t (1 : Fin 3) * 15 + 1 * d'.val = d'.val; rw [e1]; omega
  | ⟨2, _⟩ => show win0_3.index t (2 : Fin 3) * 128 + 1 * k.val = k.val; rw [e2]; omega

theorem blk4 (c : Dev nD) (t : Fin cfg0.N) (p : Fin 256) (d' : Fin 15) (e : Fin 65536) (he : e.val = t.val * 256 + p.val) :
    b4 m c t (ix2 p d') = (V m c main_arg4 : S65536x15.Idx → EReal) (ix2 e d') := by
  obtain ⟨e0, e1⟩ := idx4 t
  show V m c main_arg4 (((cfg0.win 4).blk t).view.emb (ix2 p d')) = V m c main_arg4 (ix2 e d')
  refine congrArg (V m c main_arg4) (funext fun a => Fin.ext ?_)
  match a with
  | ⟨0, _⟩ => show win0_4.index t (0 : Fin 2) * 256 + 1 * p.val = e.val; rw [e0, he]; omega
  | ⟨1, _⟩ => show win0_4.index t (1 : Fin 2) * 15 + 1 * d'.val = d'.val; rw [e1]; omega

/-- A weight's block at any point is the whole weight array. -/
theorem blk5 (c : Dev nD) (t : Fin cfg0.N) (j : Fin 896) (k : Fin 128) :
    b5 m c t (ix2 j k) = (V m c main_arg5 : S896x128.Idx → EReal) (ix2 j k) := by
  obtain ⟨e0, e1⟩ := idx5 t
  show V m c main_arg5 (((cfg0.win 5).blk t).view.emb (ix2 j k)) = V m c main_arg5 (ix2 j k)
  refine congrArg (V m c main_arg5) (funext fun a => Fin.ext ?_)
  match a with
  | ⟨0, _⟩ => show win0_5.index t (0 : Fin 2) * 896 + 1 * j.val = j.val; rw [e0]; omega
  | ⟨1, _⟩ => show win0_5.index t (1 : Fin 2) * 128 + 1 * k.val = k.val; rw [e1]; omega

theorem blk6 (c : Dev nD) (t : Fin cfg0.N) (j : Fin 896) :
    b6 m c t (ix2 (0 : Fin 1) j) = (V m c main_arg6 : S896.Idx → EReal) (ix1 j) := by
  obtain ⟨e0, e1⟩ := idx6 t
  refine Eq.trans ?_ (bias0 m c j)
  show V m c main_v0 (((cfg0.win 6).blk t).view.emb (ix2 (0 : Fin 1) j)) = V m c main_v0 (ix2 (0 : Fin 1) j)
  refine congrArg (V m c main_v0) (funext fun a => Fin.ext ?_)
  match a with
  | ⟨0, _⟩ => show win0_6.index t (0 : Fin 2) * 1 + 1 * 0 = 0; rw [e0]
  | ⟨1, _⟩ => show win0_6.index t (1 : Fin 2) * 896 + 1 * j.val = j.val; rw [e1]; omega

theorem blk7 (c : Dev nD) (t : Fin cfg0.N) (j : Fin 896) (k : Fin 128) :
    b7 m c t (ix2 j k) = (V m c main_arg7 : S896x128.Idx → EReal) (ix2 j k) := by
  obtain ⟨e0, e1⟩ := idx7 t
  show V m c main_arg7 (((cfg0.win 7).blk t).view.emb (ix2 j k)) = V m c main_arg7 (ix2 j k)
  refine congrArg (V m c main_arg7) (funext fun a => Fin.ext ?_)
  match a with
  | ⟨0, _⟩ => show win0_7.index t (0 : Fin 2) * 896 + 1 * j.val = j.val; rw [e0]; omega
  | ⟨1, _⟩ => show win0_7.index t (1 : Fin 2) * 128 + 1 * k.val = k.val; rw [e1]; omega

theorem blk8 (c : Dev nD) (t : Fin cfg0.N) (j : Fin 896) :
    b8 m c t (ix2 (0 : Fin 1) j) = (V m c main_arg8 : S896.Idx → EReal) (ix1 j) := by
  obtain ⟨e0, e1⟩ := idx8 t
  refine Eq.trans ?_ (bias1 m c j)
  show V m c main_v1 (((cfg0.win 8).blk t).view.emb (ix2 (0 : Fin 1) j)) = V m c main_v1 (ix2 (0 : Fin 1) j)
  refine congrArg (V m c main_v1) (funext fun a => Fin.ext ?_)
  match a with
  | ⟨0, _⟩ => show win0_8.index t (0 : Fin 2) * 1 + 1 * 0 = 0; rw [e0]
  | ⟨1, _⟩ => show win0_8.index t (1 : Fin 2) * 896 + 1 * j.val = j.val; rw [e1]; omega

theorem blk9 (c : Dev nD) (t : Fin cfg0.N) (cc : Fin 128) (k : Fin 128) :
    b9 m c t (ix2 cc k) = (V m c main_arg9 : S128x128.Idx → EReal) (ix2 cc k) := by
  obtain ⟨e0, e1⟩ := idx9 t
  show V m c main_arg9 (((cfg0.win 9).blk t).view.emb (ix2 cc k)) = V m c main_arg9 (ix2 cc k)
  refine congrArg (V m c main_arg9) (funext fun a => Fin.ext ?_)
  match a with
  | ⟨0, _⟩ => show win0_9.index t (0 : Fin 2) * 128 + 1 * cc.val = cc.val; rw [e0]; omega
  | ⟨1, _⟩ => show win0_9.index t (1 : Fin 2) * 128 + 1 * k.val = k.val; rw [e1]; omega

/-- Entry (p, d, c) of the output block at point t is entry (256 t + p, d, c) of the array. -/
theorem emb10 (t : Fin cfg0.N) (p : Fin 256) (d : Fin 14) (cc : Fin 128) (e : Fin 65536) (he : e.val = t.val * 256 + p.val) :
    ((cfg0.win 10).blk t).view.emb (ix3 p d cc) = (ix3 e d cc : S65536x14x128.Idx) := by
  obtain ⟨e0, e1, e2⟩ := idx10 t
  funext a
  apply Fin.ext
  match a with
  | ⟨0, _⟩ => show win0_10.index t (0 : Fin 3) * 256 + 1 * p.val = e.val; rw [e0, he]; omega
  | ⟨1, _⟩ => show win0_10.index t (1 : Fin 3) * 14 + 1 * d.val = d.val; rw [e1]; omega
  | ⟨2, _⟩ => show win0_10.index t (2 : Fin 3) * 128 + 1 * cc.val = cc.val; rw [e2]; omega

/-! ## What a point writes back -/

/-- Point t writes back block t of G of the arrays as the call finds them. -/
theorem flushed_eq (c : Dev nD) (t : Fin cfg0.N) :
    (dats m 0 c).flushed 10 t = ((cfg0.win 10).blk t).view.read (Elt Ideal)
      (Cert.Edge.G (V m c main_arg0) (V m c main_arg1) (V m c main_arg2) (V m c main_arg3) (V m c main_arg4) (V m c main_arg5) (V m c main_arg6) (V m c main_arg7) (V m c main_arg8) (V m c main_arg9)) := by
  rw [Cert.KernelIdeal.Value.flushed10]
  unfold out0_10
  rw [View.canon_unit_zero hz3]
  simp only [View.ld_unit_zero (S := S256x896) hz2, View.ld_unit_zero (S := S256x128) hz2, View.ld_unit_zero (S := S896x128) hz2,
    View.ld_unit_zero (S := S1x896) hz2, View.ld_unit_zero (S := S128x128) hz2, View.ld_unit_zero (S := S256x15) hz2,
    View.ld_unit_zero (S := S256x15x128) hz3]
  funext y
  obtain ⟨p, d, cc, rfl⟩ : ∃ (p : Fin 256) (d : Fin 14) (cc : Fin 128), y = ix3 p d cc := ⟨y 0, y 1, y 2, eq_ix3 y⟩
  have ht : t.val < 256 := t.isLt
  have he : (⟨t.val * 256 + p.val, by omega⟩ : Fin 65536).val = t.val * 256 + p.val := rfl
  show k0_pay1 (F := Ideal) (k0_pay2 (b1 m c t) (b5 m c t) (b2 m c t) (b7 m c t) (b6 m c t) (b8 m c t) (b0 m c t))
        (k0_pay3 (b1 m c t) (b5 m c t) (b2 m c t) (b7 m c t) (b6 m c t) (b8 m c t) (b0 m c t)) (k0_pay4 (b3 m c t) (b9 m c t)) (b4 m c t)
        (ix3 p d cc)
      = Cert.Edge.G (V m c main_arg0) (V m c main_arg1) (V m c main_arg2) (V m c main_arg3) (V m c main_arg4) (V m c main_arg5) (V m c main_arg6) (V m c main_arg7) (V m c main_arg8) (V m c main_arg9)
          (((cfg0.win 10).blk t).view.emb (ix3 p d cc))
  rw [emb10 t p d cc ⟨t.val * 256 + p.val, by omega⟩ he]
  refine (Cert.KernelEdge.body_apply (b0 m c t) (b1 m c t) (b2 m c t) (b3 m c t) (b4 m c t) (b5 m c t) (b6 m c t) (b7 m c t)
    (b8 m c t) (b9 m c t) p d cc).trans ?_
  show _ = Cert.Edge.out _ _ _ _ _ _ _ _ _ _ d cc
  simp only [blk0 m c t p _ _ he, blk1 m c t p _ _ he, blk2 m c t p _ _ he, blk3 m c t p _ _ _ he, blk4 m c t p _ _ he,
    blk5 m c t, blk6 m c t, blk7 m c t, blk8 m c t, blk9 m c t]

/-! ## The cover -/

/-- An index of the array is in point t's block iff each coordinate is in the block's range on its axis. -/
theorem mem_blk10 (t : Fin cfg0.N) (i : S65536x14x128.Idx) :
    i ∈ ((cfg0.win 10).blk t).view.set ↔ ∀ a : Fin 3, win0_10.index t a * S256x14x128.size a ≤ (i a).val
      ∧ (i a).val < win0_10.index t a * S256x14x128.size a + S256x14x128.size a := by
  show i ∈ ((View.whole main_v2).slice (win0_10.rect t)).set ↔ _
  rw [View.set_slice_whole, Rect.mem_set_unit]
  exact Iff.rfl

/-- Every entry of the result lies in the block of the point that handles its edge. -/
theorem cover10 (i : S65536x14x128.Idx) :
    ∃ t : Fin cfg0.N, (cfg0.win 10).flush t = true ∧ i ∈ ((cfg0.win 10).blk t).view.set := by
  have hi0 : (i 0).val < 65536 := (i 0).isLt
  have hi1 : (i 1).val < 14 := (i 1).isLt
  have hi2 : (i 2).val < 128 := (i 2).isLt
  have hq : (i 0).val / 256 < 256 := by omega
  refine ⟨⟨(i 0).val / 256, hq⟩, flush0_10 _, ?_⟩
  rw [mem_blk10]
  obtain ⟨e0, e1, e2⟩ := idx10 ⟨(i 0).val / 256, hq⟩
  intro a
  match a with
  | ⟨0, _⟩ =>
    show win0_10.index ⟨(i 0).val / 256, hq⟩ (0 : Fin 3) * 256 ≤ (i 0).val
      ∧ (i 0).val < win0_10.index ⟨(i 0).val / 256, hq⟩ (0 : Fin 3) * 256 + 256
    rw [e0]; show (i 0).val / 256 * 256 ≤ (i 0).val ∧ (i 0).val < (i 0).val / 256 * 256 + 256; omega
  | ⟨1, _⟩ =>
    show win0_10.index ⟨(i 0).val / 256, hq⟩ (1 : Fin 3) * 14 ≤ (i 1).val
      ∧ (i 1).val < win0_10.index ⟨(i 0).val / 256, hq⟩ (1 : Fin 3) * 14 + 14
    rw [e1]; omega
  | ⟨2, _⟩ =>
    show win0_10.index ⟨(i 0).val / 256, hq⟩ (2 : Fin 3) * 128 ≤ (i 2).val
      ∧ (i 2).val < win0_10.index ⟨(i 0).val / 256, hq⟩ (2 : Fin 3) * 128 + 128
    rw [e2]; omega

/-! ## The array after the run -/

/-- The result array ends holding G of the arguments as launched. -/
theorem final (c : Dev nD) :
    (dats m 0 c).arrAt 10 cfg0.N = Cert.Edge.G
        (m ((c : Thread nD τ).loc main_arg0))
        (m ((c : Thread nD τ).loc main_arg1))
        (m ((c : Thread nD τ).loc main_arg2))
        (m ((c : Thread nD τ).loc main_arg3))
        (m ((c : Thread nD τ).loc main_arg4))
        (m ((c : Thread nD τ).loc main_arg5))
        (m ((c : Thread nD τ).loc main_arg6))
        (m ((c : Thread nD τ).loc main_arg7))
        (m ((c : Thread nD τ).loc main_arg8))
        (m ((c : Thread nD τ).loc main_arg9)) := by
  rw [(dats m 0 c).arrAt_eq_of_cover 10 _ (fun t _ => flushed_eq m c t) cover10]
  rw [V_main_arg0, V_main_arg1, V_main_arg2, V_main_arg3, V_main_arg4, V_main_arg5, V_main_arg6, V_main_arg7, V_main_arg8,
    V_main_arg9]

/-- The kernel's run: the result at G of the arguments, the arguments unchanged. -/
theorem run : θ_run defs (onTc (τ := τ) (main (F := Ideal))) ⟨m, fun _ => 0, ρ⟩ fun r => ∀ c : Dev nD,
      r.2.mem ((c : Thread nD τ).loc main_v2) = Cert.Edge.G
        (m ((c : Thread nD τ).loc main_arg0))
        (m ((c : Thread nD τ).loc main_arg1))
        (m ((c : Thread nD τ).loc main_arg2))
        (m ((c : Thread nD τ).loc main_arg3))
        (m ((c : Thread nD τ).loc main_arg4))
        (m ((c : Thread nD τ).loc main_arg5))
        (m ((c : Thread nD τ).loc main_arg6))
        (m ((c : Thread nD τ).loc main_arg7))
        (m ((c : Thread nD τ).loc main_arg8))
        (m ((c : Thread nD τ).loc main_arg9))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Cert.KernelIdeal.Value.run_blocks m ρ)

end Cert.KernelArray

end
-- ==== Proof.RefEdge.lean ====
/-
  The reference's result, read at one entry, is the edge formula of that edge's rows.

  Entry (e, d, c) of the reference's [65536, 14, 128] result depends on row e of each per-edge input and on the shared
  weights only: it is `Edge.out` of those rows at (d, c).  The reference spells the gated update with two matrix products
  against transposed weights and broadcast biases, silu as x * (1 / (1 + exp (-x))), the projection as one contraction
  over the last axis, and the fourteen rows as a concatenation of four pieces; each is read at the entry.
-/
import proofs.«157935_j50208167690483_1_alg».proof.Proof.Gen.ReferenceIdeal.Read
import proofs.«157935_j50208167690483_1_alg».proof.Proof.EdgeFormula
import proofs.«157935_j50208167690483_1_alg».proof.Proof.LibConcat4Mid
import Idealize.ShloMosaic.Lib.IdealHost

noncomputable section

namespace Cert.RefEdge

open Cert.ReferenceIdeal Cert.ReferenceIdeal.Read Idealize.ShloMosaic Idealize.ShloMosaic.ValueIdx

/-! The reference is read from the result backwards: first what each intermediate array holds at an entry of row e
    (the two linear maps, silu, the gated update, its seven groups, the projection, the broadcast rows of rl), then the
    four pieces of the concatenation. -/

/-- The reshape [65536, 896] -> [65536, 7, 128] reads column s * 128 + c of row e. -/
theorem idx13 (e : Fin 65536) (s : Fin 7) (c : Fin 128) :
    idx_main_v13 (ix3 e s c) = ix2 e (Cert.Edge.chan s c) := by
  funext a
  match a with
  | ⟨0, _⟩ => exact Fin.ext (by show ((e.val * 7 + s.val) * 128 + c.val) / 896 = e.val; omega)
  | ⟨1, _⟩ => exact Fin.ext (by show ((e.val * 7 + s.val) * 128 + c.val) % 896 = s.val * 128 + c.val; omega)

/-- Row e of the first product plus its bias, at column j: t . wrs j + wb j. -/
theorem v4_at (x1 : FVec Ideal S65536x128 .f32) (x5 : FVec Ideal S896x128 .f32) (x6 : FVec Ideal S896 .f32)
    (e : Fin 65536) (j : Fin 896) :
    val_main_v4 (F := Ideal) x1 x5 x6 (ix2 e j)
      = Cert.Edge.lin (fun k => x1 (ix2 e k)) (fun j k => x5 (ix2 j k)) (fun j => x6 (ix1 j)) j := by
  rw [val_main_v4_apply, val_main_v1_apply, val_main_v3_apply, val_main_v2_apply]
  unfold Cert.Edge.lin
  refine congrArg₂ (· + ·) (Finset.sum_congr rfl fun k _ => ?_) ?_
  · rw [val_main_v0_apply]
    refine congrArg₂ (· * ·) (congrArg x1 ?_) (congrArg x5 ?_)
    · funext a; match a with | ⟨0, _⟩ => rfl | ⟨1, _⟩ => rfl
    · funext a; match a with | ⟨0, _⟩ => rfl | ⟨1, _⟩ => rfl
  · refine congrArg x6 ?_
    funext a; match a with | ⟨0, _⟩ => rfl

/-- Row e of the second product plus its bias, at column j: h . gw j + gb j. -/
theorem v9_at (x2 : FVec Ideal S65536x128 .f32) (x7 : FVec Ideal S896x128 .f32) (x8 : FVec Ideal S896 .f32)
    (e : Fin 65536) (j : Fin 896) :
    val_main_v9 (F := Ideal) x2 x7 x8 (ix2 e j)
      = Cert.Edge.lin (fun k => x2 (ix2 e k)) (fun j k => x7 (ix2 j k)) (fun j => x8 (ix1 j)) j := by
  rw [val_main_v9_apply, val_main_v6_apply, val_main_v8_apply, val_main_v7_apply]
  unfold Cert.Edge.lin
  refine congrArg₂ (· + ·) (Finset.sum_congr rfl fun k _ => ?_) ?_
  · rw [val_main_v5_apply]
    refine congrArg₂ (· * ·) (congrArg x2 ?_) (congrArg x7 ?_)
    · funext a; match a with | ⟨0, _⟩ => rfl | ⟨1, _⟩ => rfl
    · funext a; match a with | ⟨0, _⟩ => rfl | ⟨1, _⟩ => rfl
  · refine congrArg x8 ?_
    funext a; match a with | ⟨0, _⟩ => rfl

/-- The first silu call, entry by entry: x * (1 / (1 + exp (-x))) of the second linear map. -/
theorem v10_at (x2 : FVec Ideal S65536x128 .f32) (x7 : FVec Ideal S896x128 .f32) (x8 : FVec Ideal S896 .f32)
    (i : S65536x896.Idx) :
    val_main_v10 (F := Ideal) x2 x7 x8 i = Cert.Edge.silu (val_main_v9 (F := Ideal) x2 x7 x8 i) := by
  rw [val_main_v10_apply, val_main_call0_v5_apply, val_main_call0_v4_apply, val_main_call0_cst_0_apply,
    val_main_call0_v3_apply, val_main_call0_v2_apply, val_main_call0_cst_apply, val_main_call0_v1_apply,
    val_main_call0_v0_apply]
  simp only [Ideal.mulf_def, Ideal.hostDivf_def, Ideal.ofBits_def, Ideal.ofBits_one_f32, Ideal.addf_def,
    Ideal.hostUnary_exp_def]
  rfl

/-- The gated update of row e at column j. -/
theorem v12_at (x0 : FVec Ideal S65536x896 .f32) (x1 x2 : FVec Ideal S65536x128 .f32) (x5 : FVec Ideal S896x128 .f32)
    (x6 : FVec Ideal S896 .f32) (x7 : FVec Ideal S896x128 .f32) (x8 : FVec Ideal S896 .f32) (e : Fin 65536) (j : Fin 896) :
    val_main_v12 (F := Ideal) x0 x1 x2 x5 x6 x7 x8 (ix2 e j)
      = Cert.Edge.gated (fun j => x0 (ix2 e j)) (fun k => x1 (ix2 e k)) (fun k => x2 (ix2 e k)) (fun j k => x5 (ix2 j k))
          (fun j => x6 (ix1 j)) (fun j k => x7 (ix2 j k)) (fun j => x8 (ix1 j)) j := by
  rw [val_main_v12_apply, val_main_v11_apply, v10_at, v4_at, v9_at]
  rfl

/-- The gated update of row e read as seven groups of 128 channels: group s, channel c is column s * 128 + c. -/
theorem v13_at (x0 : FVec Ideal S65536x896 .f32) (x1 x2 : FVec Ideal S65536x128 .f32) (x5 : FVec Ideal S896x128 .f32)
    (x6 : FVec Ideal S896 .f32) (x7 : FVec Ideal S896x128 .f32) (x8 : FVec Ideal S896 .f32) (e : Fin 65536) (s : Fin 7)
    (c : Fin 128) :
    val_main_v13 (F := Ideal) x0 x1 x2 x5 x6 x7 x8 (ix3 e s c)
      = Cert.Edge.gated (fun j => x0 (ix2 e j)) (fun k => x1 (ix2 e k)) (fun k => x2 (ix2 e k)) (fun j k => x5 (ix2 j k))
          (fun j => x6 (ix1 j)) (fun j k => x7 (ix2 j k)) (fun j => x8 (ix1 j)) (Cert.Edge.chan s c) := by
  rw [val_main_v13_apply, idx13]
  exact v12_at x0 x1 x2 x5 x6 x7 x8 e (Cert.Edge.chan s c)

/-- Group 1 of the gated update, repeated over the three rows of the second piece. -/
theorem v28_at (x0 : FVec Ideal S65536x896 .f32) (x1 x2 : FVec Ideal S65536x128 .f32) (x5 : FVec Ideal S896x128 .f32)
    (x6 : FVec Ideal S896 .f32) (x7 : FVec Ideal S896x128 .f32) (x8 : FVec Ideal S896 .f32)
    (e : Fin 65536) (j : Fin 3) (c : Fin 128) :
    val_main_v28 (F := Ideal) x0 x1 x2 x5 x6 x7 x8 (ix3 e j c)
      = Cert.Edge.gated (fun j => x0 (ix2 e j)) (fun k => x1 (ix2 e k)) (fun k => x2 (ix2 e k)) (fun j k => x5 (ix2 j k))
          (fun j => x6 (ix1 j)) (fun j k => x7 (ix2 j k)) (fun j => x8 (ix1 j)) (Cert.Edge.chan 1 c) := by
  rw [val_main_v28_apply, val_main_v24_apply, val_main_v23_apply, val_main_v22_apply]
  refine Eq.trans (congrArg _ ?_) (v13_at x0 x1 x2 x5 x6 x7 x8 e 1 c)
  funext a
  match a with
  | ⟨0, _⟩ => exact Fin.ext (by show (e.val * 128 + c.val) / 128 = e.val; omega)
  | ⟨1, _⟩ => exact Fin.ext (by show 1 + 0 = 1; rfl)
  | ⟨2, _⟩ => exact Fin.ext (by show (e.val * 128 + c.val) % 128 = c.val; omega)

/-- Group 4 of the gated update, repeated over the three rows of the second piece. -/
theorem v31_at (x0 : FVec Ideal S65536x896 .f32) (x1 x2 : FVec Ideal S65536x128 .f32) (x5 : FVec Ideal S896x128 .f32)
    (x6 : FVec Ideal S896 .f32) (x7 : FVec Ideal S896x128 .f32) (x8 : FVec Ideal S896 .f32)
    (e : Fin 65536) (j : Fin 3) (c : Fin 128) :
    val_main_v31 (F := Ideal) x0 x1 x2 x5 x6 x7 x8 (ix3 e j c)
      = Cert.Edge.gated (fun j => x0 (ix2 e j)) (fun k => x1 (ix2 e k)) (fun k => x2 (ix2 e k)) (fun j k => x5 (ix2 j k))
          (fun j => x6 (ix1 j)) (fun j k => x7 (ix2 j k)) (fun j => x8 (ix1 j)) (Cert.Edge.chan 4 c) := by
  rw [val_main_v31_apply, val_main_v27_apply, val_main_v26_apply, val_main_v25_apply]
  refine Eq.trans (congrArg _ ?_) (v13_at x0 x1 x2 x5 x6 x7 x8 e 4 c)
  funext a
  match a with
  | ⟨0, _⟩ => exact Fin.ext (by show (e.val * 128 + c.val) / 128 = e.val; omega)
  | ⟨1, _⟩ => exact Fin.ext (by show 4 + 0 = 4; rfl)
  | ⟨2, _⟩ => exact Fin.ext (by show (e.val * 128 + c.val) % 128 = c.val; omega)

/-- Group 2 of the gated update, repeated over the five rows of the third piece. -/
theorem v43_at (x0 : FVec Ideal S65536x896 .f32) (x1 x2 : FVec Ideal S65536x128 .f32) (x5 : FVec Ideal S896x128 .f32)
    (x6 : FVec Ideal S896 .f32) (x7 : FVec Ideal S896x128 .f32) (x8 : FVec Ideal S896 .f32)
    (e : Fin 65536) (j : Fin 5) (c : Fin 128) :
    val_main_v43 (F := Ideal) x0 x1 x2 x5 x6 x7 x8 (ix3 e j c)
      = Cert.Edge.gated (fun j => x0 (ix2 e j)) (fun k => x1 (ix2 e k)) (fun k => x2 (ix2 e k)) (fun j k => x5 (ix2 j k))
          (fun j => x6 (ix1 j)) (fun j k => x7 (ix2 j k)) (fun j => x8 (ix1 j)) (Cert.Edge.chan 2 c) := by
  rw [val_main_v43_apply, val_main_v39_apply, val_main_v38_apply, val_main_v37_apply]
  refine Eq.trans (congrArg _ ?_) (v13_at x0 x1 x2 x5 x6 x7 x8 e 2 c)
  funext a
  match a with
  | ⟨0, _⟩ => exact Fin.ext (by show (e.val * 128 + c.val) / 128 = e.val; omega)
  | ⟨1, _⟩ => exact Fin.ext (by show 2 + 0 = 2; rfl)
  | ⟨2, _⟩ => exact Fin.ext (by show (e.val * 128 + c.val) % 128 = c.val; omega)

/-- Group 5 of the gated update, repeated over the five rows of the third piece. -/
theorem v46_at (x0 : FVec Ideal S65536x896 .f32) (x1 x2 : FVec Ideal S65536x128 .f32) (x5 : FVec Ideal S896x128 .f32)
    (x6 : FVec Ideal S896 .f32) (x7 : FVec Ideal S896x128 .f32) (x8 : FVec Ideal S896 .f32)
    (e : Fin 65536) (j : Fin 5) (c : Fin 128) :
    val_main_v46 (F := Ideal) x0 x1 x2 x5 x6 x7 x8 (ix3 e j c)
      = Cert.Edge.gated (fun j => x0 (ix2 e j)) (fun k => x1 (ix2 e k)) (fun k => x2 (ix2 e k)) (fun j k => x5 (ix2 j k))
          (fun j => x6 (ix1 j)) (fun j k => x7 (ix2 j k)) (fun j => x8 (ix1 j)) (Cert.Edge.chan 5 c) := by
  rw [val_main_v46_apply, val_main_v42_apply, val_main_v41_apply, val_main_v40_apply]
  refine Eq.trans (congrArg _ ?_) (v13_at x0 x1 x2 x5 x6 x7 x8 e 5 c)
  funext a
  match a with
  | ⟨0, _⟩ => exact Fin.ext (by show (e.val * 128 + c.val) / 128 = e.val; omega)
  | ⟨1, _⟩ => exact Fin.ext (by show 5 + 0 = 5; rfl)
  | ⟨2, _⟩ => exact Fin.ext (by show (e.val * 128 + c.val) % 128 = c.val; omega)

/-- Group 3 of the gated update, repeated over the five rows of the fourth piece. -/
theorem v58_at (x0 : FVec Ideal S65536x896 .f32) (x1 x2 : FVec Ideal S65536x128 .f32) (x5 : FVec Ideal S896x128 .f32)
    (x6 : FVec Ideal S896 .f32) (x7 : FVec Ideal S896x128 .f32) (x8 : FVec Ideal S896 .f32)
    (e : Fin 65536) (j : Fin 5) (c : Fin 128) :
    val_main_v58 (F := Ideal) x0 x1 x2 x5 x6 x7 x8 (ix3 e j c)
      = Cert.Edge.gated (fun j => x0 (ix2 e j)) (fun k => x1 (ix2 e k)) (fun k => x2 (ix2 e k)) (fun j k => x5 (ix2 j k))
          (fun j => x6 (ix1 j)) (fun j k => x7 (ix2 j k)) (fun j => x8 (ix1 j)) (Cert.Edge.chan 3 c) := by
  rw [val_main_v58_apply, val_main_v54_apply, val_main_v53_apply, val_main_v52_apply]
  refine Eq.trans (congrArg _ ?_) (v13_at x0 x1 x2 x5 x6 x7 x8 e 3 c)
  funext a
  match a with
  | ⟨0, _⟩ => exact Fin.ext (by show (e.val * 128 + c.val) / 128 = e.val; omega)
  | ⟨1, _⟩ => exact Fin.ext (by show 3 + 0 = 3; rfl)
  | ⟨2, _⟩ => exact Fin.ext (by show (e.val * 128 + c.val) % 128 = c.val; omega)

/-- Group 6 of the gated update, repeated over the five rows of the fourth piece. -/
theorem v61_at (x0 : FVec Ideal S65536x896 .f32) (x1 x2 : FVec Ideal S65536x128 .f32) (x5 : FVec Ideal S896x128 .f32)
    (x6 : FVec Ideal S896 .f32) (x7 : FVec Ideal S896x128 .f32) (x8 : FVec Ideal S896 .f32)
    (e : Fin 65536) (j : Fin 5) (c : Fin 128) :
    val_main_v61 (F := Ideal) x0 x1 x2 x5 x6 x7 x8 (ix3 e j c)
      = Cert.Edge.gated (fun j => x0 (ix2 e j)) (fun k => x1 (ix2 e k)) (fun k => x2 (ix2 e k)) (fun j k => x5 (ix2 j k))
          (fun j => x6 (ix1 j)) (fun j k => x7 (ix2 j k)) (fun j => x8 (ix1 j)) (Cert.Edge.chan 6 c) := by
  rw [val_main_v61_apply, val_main_v57_apply, val_main_v56_apply, val_main_v55_apply]
  refine Eq.trans (congrArg _ ?_) (v13_at x0 x1 x2 x5 x6 x7 x8 e 6 c)
  funext a
  match a with
  | ⟨0, _⟩ => exact Fin.ext (by show (e.val * 128 + c.val) / 128 = e.val; omega)
  | ⟨1, _⟩ => exact Fin.ext (by show 6 + 0 = 6; rfl)
  | ⟨2, _⟩ => exact Fin.ext (by show (e.val * 128 + c.val) % 128 = c.val; omega)

/-- The second silu call, entry by entry. -/
theorem v16_at (x0 : FVec Ideal S65536x896 .f32) (x1 x2 : FVec Ideal S65536x128 .f32) (x5 : FVec Ideal S896x128 .f32)
    (x6 : FVec Ideal S896 .f32) (x7 : FVec Ideal S896x128 .f32) (x8 : FVec Ideal S896 .f32) (i : S65536x128.Idx) :
    val_main_v16 (F := Ideal) x0 x1 x2 x5 x6 x7 x8 i
      = Cert.Edge.silu (val_main_v15 (F := Ideal) x0 x1 x2 x5 x6 x7 x8 i) := by
  rw [val_main_v16_apply, val_main_call1_v5_apply, val_main_call1_v4_apply, val_main_call1_cst_0_apply,
    val_main_call1_v3_apply, val_main_call1_v2_apply, val_main_call1_cst_apply, val_main_call1_v1_apply,
    val_main_call1_v0_apply]
  simp only [Ideal.mulf_def, Ideal.hostDivf_def, Ideal.ofBits_def, Ideal.ofBits_one_f32, Ideal.addf_def,
    Ideal.hostUnary_exp_def]
  rfl

/-- Row 0 of the result: silu of group 0 of the gated update. -/
theorem v17_at (x0 : FVec Ideal S65536x896 .f32) (x1 x2 : FVec Ideal S65536x128 .f32) (x5 : FVec Ideal S896x128 .f32)
    (x6 : FVec Ideal S896 .f32) (x7 : FVec Ideal S896x128 .f32) (x8 : FVec Ideal S896 .f32)
    (e : Fin 65536) (j : Fin 1) (c : Fin 128) :
    val_main_v17 (F := Ideal) x0 x1 x2 x5 x6 x7 x8 (ix3 e j c)
      = Cert.Edge.silu (Cert.Edge.gated (fun j => x0 (ix2 e j)) (fun k => x1 (ix2 e k)) (fun k => x2 (ix2 e k))
          (fun j k => x5 (ix2 j k)) (fun j => x6 (ix1 j)) (fun j k => x7 (ix2 j k)) (fun j => x8 (ix1 j))
          (Cert.Edge.chan 0 c)) := by
  rw [val_main_v17_apply, v16_at, val_main_v15_apply, val_main_v14_apply]
  refine congrArg Cert.Edge.silu (Eq.trans (congrArg _ ?_) (v13_at x0 x1 x2 x5 x6 x7 x8 e 0 c))
  funext a
  match a with
  | ⟨0, _⟩ => exact Fin.ext (by show (e.val * 128 + c.val) / 128 = e.val; omega)
  | ⟨1, _⟩ => rfl
  | ⟨2, _⟩ => exact Fin.ext (by show (e.val * 128 + c.val) % 128 = c.val; omega)

/-- The projection of the neighbour's features: component d', channel c is X d' . xw c. -/
theorem v18_at (x3 : FVec Ideal S65536x15x128 .f32) (x9 : FVec Ideal S128x128 .f32) (e : Fin 65536) (d' : Fin 15) (c : Fin 128) :
    val_main_v18 (F := Ideal) x3 x9 (ix3 e d' c)
      = Cert.Edge.proj (fun d' k => x3 (ix3 e d' k)) (fun c' k => x9 (ix2 c' k)) d' c := by
  rw [val_main_v18_apply]
  unfold Cert.Edge.proj
  refine Finset.sum_congr rfl fun k _ => congrArg₂ (· * ·) (congrArg x3 ?_) (congrArg x9 ?_)
  · funext a; match a with | ⟨0, _⟩ => rfl | ⟨1, _⟩ => rfl | ⟨2, _⟩ => rfl
  · funext a; match a with | ⟨0, _⟩ => rfl | ⟨1, _⟩ => rfl

/-- Rows 0 .. 2 of the projection: row j is component j. -/
theorem v19_at (x3 : FVec Ideal S65536x15x128 .f32) (x9 : FVec Ideal S128x128 .f32) (e : Fin 65536) (j : Fin 3) (c : Fin 128)
    (d' : Fin 15) (hd : d'.val = j.val) :
    val_main_v19 (F := Ideal) x3 x9 (ix3 e j c)
      = Cert.Edge.proj (fun d' k => x3 (ix3 e d' k)) (fun c' k => x9 (ix2 c' k)) d' c := by
  rw [val_main_v19_apply]
  refine Eq.trans (congrArg _ ?_) (v18_at x3 x9 e d' c)
  funext a
  match a with
  | ⟨0, _⟩ => rfl
  | ⟨1, _⟩ => exact Fin.ext (by show j.val = d'.val; omega)
  | ⟨2, _⟩ => rfl

/-- Rows 3 .. 7 of the projection: row j of the slice is component 3 + j. -/
theorem v34_at (x3 : FVec Ideal S65536x15x128 .f32) (x9 : FVec Ideal S128x128 .f32) (e : Fin 65536) (j : Fin 5) (c : Fin 128)
    (d' : Fin 15) (hd : d'.val = 3 + j.val) :
    val_main_v34 (F := Ideal) x3 x9 (ix3 e j c)
      = Cert.Edge.proj (fun d' k => x3 (ix3 e d' k)) (fun c' k => x9 (ix2 c' k)) d' c := by
  rw [val_main_v34_apply]
  refine Eq.trans (congrArg _ ?_) (v18_at x3 x9 e d' c)
  funext a
  match a with
  | ⟨0, _⟩ => rfl
  | ⟨1, _⟩ => exact Fin.ext (by show 3 + j.val = d'.val; omega)
  | ⟨2, _⟩ => rfl

/-- Rows 8 .. 12 of the projection: row j of the slice is component 8 + j. -/
theorem v49_at (x3 : FVec Ideal S65536x15x128 .f32) (x9 : FVec Ideal S128x128 .f32) (e : Fin 65536) (j : Fin 5) (c : Fin 128)
    (d' : Fin 15) (hd : d'.val = 8 + j.val) :
    val_main_v49 (F := Ideal) x3 x9 (ix3 e j c)
      = Cert.Edge.proj (fun d' k => x3 (ix3 e d' k)) (fun c' k => x9 (ix2 c' k)) d' c := by
  rw [val_main_v49_apply]
  refine Eq.trans (congrArg _ ?_) (v18_at x3 x9 e d' c)
  funext a
  match a with
  | ⟨0, _⟩ => rfl
  | ⟨1, _⟩ => exact Fin.ext (by show 8 + j.val = d'.val; omega)
  | ⟨2, _⟩ => rfl

/-- Columns 0 .. 2 of rl, repeated over the 128 channels: row j reads rl j. -/
theorem v29_at (x4 : FVec Ideal S65536x15 .f32) (e : Fin 65536) (j : Fin 3) (c : Fin 128)
    (d' : Fin 15) (hd : d'.val = j.val) :
    val_main_v29 (F := Ideal) x4 (ix3 e j c) = x4 (ix2 e d') := by
  rw [val_main_v29_apply, val_main_v21_apply, val_main_v20_apply]
  refine congrArg x4 ?_
  funext a
  match a with
  | ⟨0, _⟩ => rfl
  | ⟨1, _⟩ => exact Fin.ext (by show j.val = d'.val; omega)

/-- Columns 3 .. 7 of rl, repeated over the 128 channels: row j reads rl (3 + j). -/
theorem v44_at (x4 : FVec Ideal S65536x15 .f32) (e : Fin 65536) (j : Fin 5) (c : Fin 128)
    (d' : Fin 15) (hd : d'.val = 3 + j.val) :
    val_main_v44 (F := Ideal) x4 (ix3 e j c) = x4 (ix2 e d') := by
  rw [val_main_v44_apply, val_main_v36_apply, val_main_v35_apply]
  refine congrArg x4 ?_
  funext a
  match a with
  | ⟨0, _⟩ => rfl
  | ⟨1, _⟩ => exact Fin.ext (by show 3 + j.val = d'.val; omega)

/-- Columns 8 .. 12 of rl, repeated over the 128 channels: row j reads rl (8 + j). -/
theorem v59_at (x4 : FVec Ideal S65536x15 .f32) (e : Fin 65536) (j : Fin 5) (c : Fin 128)
    (d' : Fin 15) (hd : d'.val = 8 + j.val) :
    val_main_v59 (F := Ideal) x4 (ix3 e j c) = x4 (ix2 e d') := by
  rw [val_main_v59_apply, val_main_v51_apply, val_main_v50_apply]
  refine congrArg x4 ?_
  funext a
  match a with
  | ⟨0, _⟩ => rfl
  | ⟨1, _⟩ => exact Fin.ext (by show 8 + j.val = d'.val; omega)

/-- The reference's result at entry (e, d, c) is the edge formula of row e of the inputs. -/
theorem ref_apply (x0 : FVec Ideal S65536x896 .f32) (x1 x2 : FVec Ideal S65536x128 .f32) (x3 : FVec Ideal S65536x15x128 .f32)
    (x4 : FVec Ideal S65536x15 .f32) (x5 : FVec Ideal S896x128 .f32) (x6 : FVec Ideal S896 .f32) (x7 : FVec Ideal S896x128 .f32)
    (x8 : FVec Ideal S896 .f32) (x9 : FVec Ideal S128x128 .f32) (e : Fin 65536) (d : Fin 14) (c : Fin 128) :
    val_main_v64 (F := Ideal) x0 x1 x2 x3 x4 x5 x6 x7 x8 x9 (ix3 e d c)
      = Cert.Edge.out (fun j => x0 (ix2 e j)) (fun k => x1 (ix2 e k)) (fun k => x2 (ix2 e k)) (fun d' k => x3 (ix3 e d' k))
          (fun d' => x4 (ix2 e d')) (fun j k => x5 (ix2 j k)) (fun j => x6 (ix1 j)) (fun j k => x7 (ix2 j k))
          (fun j => x8 (ix1 j)) (fun c' k => x9 (ix2 c' k)) d c := by
  unfold val_main_v64
  by_cases h1 : d.val < 1
  · -- row 0 lies in the first piece
    refine (Cert.Lib.Concat4Mid.piece0 (n0 := 1) (n1 := 3) (n2 := 5) (n3 := 5) _ _ _ _ _ e d c ⟨d.val, by omega⟩ rfl).trans ?_
    unfold Cert.Edge.out
    rw [if_pos h1]
    exact v17_at x0 x1 x2 x5 x6 x7 x8 e _ c
  · by_cases h4 : d.val < 4
    · -- rows 1 .. 3 are rows 0 .. 2 of the second piece, which reads components 0 .. 2: component d - 1
      refine (Cert.Lib.Concat4Mid.piece1 (n0 := 1) (n1 := 3) (n2 := 5) (n3 := 5) _ _ _ _ _ e d c ⟨d.val - 1, by omega⟩ (by show d.val = 1 + (d.val - 1); omega)).trans ?_
      unfold Cert.Edge.out Cert.Edge.mix
      rw [if_neg h1, if_pos h4]
      rw [val_main_v33_apply, val_main_v30_apply, val_main_v32_apply, v28_at, v31_at,
        v29_at x4 e _ c (Cert.Edge.comp d) (by show d.val - 1 = d.val - 1; rfl),
        v19_at x3 x9 e _ c (Cert.Edge.comp d) (by show d.val - 1 = d.val - 1; rfl)]
      rfl
    · by_cases h9 : d.val < 9
      · -- rows 4 .. 8 are rows 0 .. 4 of the third piece, which reads components 3 .. 7: component d - 1
        refine (Cert.Lib.Concat4Mid.piece2 (n0 := 1) (n1 := 3) (n2 := 5) (n3 := 5) _ _ _ _ _ e d c ⟨d.val - 4, by omega⟩ (by show d.val = 1 + 3 + (d.val - 4); omega)).trans ?_
        unfold Cert.Edge.out Cert.Edge.mix
        rw [if_neg h1, if_neg h4, if_pos h9]
        rw [val_main_v48_apply, val_main_v45_apply, val_main_v47_apply, v43_at, v46_at,
          v44_at x4 e _ c (Cert.Edge.comp d) (by show d.val - 1 = 3 + (d.val - 4); omega),
          v34_at x3 x9 e _ c (Cert.Edge.comp d) (by show d.val - 1 = 3 + (d.val - 4); omega)]
        rfl
      · -- rows 9 .. 13 are rows 0 .. 4 of the fourth piece, which reads components 8 .. 12: component d - 1
        refine (Cert.Lib.Concat4Mid.piece3 (n0 := 1) (n1 := 3) (n2 := 5) (n3 := 5) _ _ _ _ _ e d c ⟨d.val - 9, by have := d.isLt; omega⟩ (by show d.val = 1 + 3 + 5 + (d.val - 9); omega)).trans ?_
        unfold Cert.Edge.out Cert.Edge.mix
        rw [if_neg h1, if_neg h4, if_neg h9]
        rw [val_main_v63_apply, val_main_v60_apply, val_main_v62_apply, v58_at, v61_at,
          v59_at x4 e _ c (Cert.Edge.comp d) (by show d.val - 1 = 8 + (d.val - 9); omega),
          v49_at x3 x9 e _ c (Cert.Edge.comp d) (by show d.val - 1 = 8 + (d.val - 9); omega)]
        rfl

end Cert.RefEdge

end
-- ==== Proof.lean ====
/-
  The kernel and its reference compute one function over the extended reals.

  Both compute, for each of 65536 edges, the fourteen rows of 128 channels that `Cert.Edge.out` (Proof/EdgeFormula.lean)
  defines from that edge's rows of the inputs and the shared weights: a gated update of 896 channels
  a + (t W1ᵀ + b1) * silu (h W2ᵀ + b2), read as seven groups; silu of group 0 as row 0; and for degrees 1, 2, 3 the
  rows  o_l * rl + o_(l+3) * (X W3ᵀ)  over the degree's kept components.  The kernel does it 256 edges at a time, with
  products that contract the weights' second axis and silu through the logistic function; the reference does it for
  all edges at once, with transposed weights and silu spelt x * (1 / (1 + exp (-x))), which is the logistic function's
  definition on the extended reals.  The sums have the same terms in the same order and every other operation is the
  same, so no law of arithmetic is needed and the precondition (finite inputs) is never opened.

  Proof/KernelEdge.lean reads the kernel's body at an entry of its block, Proof/KernelArray.lean carries that from the
  256 blocks to the whole array (the generated run with the result array named, the blocks tiling it), and
  Proof/RefEdge.lean reads the reference's operations at an entry.  The frames are the generated ones; the reference's
  is its generated run with the result dropped.  The kernel's idealization rewrote nothing, so it is preserved trivially.
-/
import proofs.«157935_j50208167690483_1_alg».proof.Defs
import proofs.«157935_j50208167690483_1_alg».proof.Proof.Gen.Kernel
import proofs.«157935_j50208167690483_1_alg».proof.Proof.Gen.Kernel.Skeleton
import proofs.«157935_j50208167690483_1_alg».proof.Proof.Gen.Kernel.Launch
import proofs.«157935_j50208167690483_1_alg».proof.Proof.Gen.Kernel.Points
import proofs.«157935_j50208167690483_1_alg».proof.Proof.Gen.Kernel.Frame
import proofs.«157935_j50208167690483_1_alg».proof.Proof.Gen.KernelIdeal
import proofs.«157935_j50208167690483_1_alg».proof.Proof.Gen.KernelIdeal.Skeleton
import proofs.«157935_j50208167690483_1_alg».proof.Proof.Gen.KernelIdeal.Launch
import proofs.«157935_j50208167690483_1_alg».proof.Proof.Gen.KernelIdeal.Points
import proofs.«157935_j50208167690483_1_alg».proof.Proof.Gen.KernelIdeal.Frame
import proofs.«157935_j50208167690483_1_alg».proof.Proof.Gen.ReferenceIdeal
import proofs.«157935_j50208167690483_1_alg».proof.Proof.Gen.Pre_finite_inputs
import proofs.«157935_j50208167690483_1_alg».proof.Proof.Gen.KernelIdeal.Value
import proofs.«157935_j50208167690483_1_alg».proof.Proof.Gen.ReferenceIdeal.Run
import proofs.«157935_j50208167690483_1_alg».proof.Proof.Gen.ReferenceIdeal.Read
import proofs.«157935_j50208167690483_1_alg».proof.Proof.KernelArray
import proofs.«157935_j50208167690483_1_alg».proof.Proof.RefEdge
import Idealize.ShloMosaic.Adequacy
import Idealize.ShloMosaic.Init

noncomputable section

namespace Cert.Proof

open Idealize.ShloMosaic Idealize.ShloMosaic.ValueIdx Idealize.SL.Sem

/-- The word-level kernel runs, faults nowhere and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The reference's whole result is the array of all edges' messages: entry by entry, Proof/RefEdge.lean. -/
theorem ref_eq (x0 : FVec Ideal Cert.ReferenceIdeal.S65536x896 .f32) (x1 x2 : FVec Ideal Cert.ReferenceIdeal.S65536x128 .f32)
    (x3 : FVec Ideal Cert.ReferenceIdeal.S65536x15x128 .f32) (x4 : FVec Ideal Cert.ReferenceIdeal.S65536x15 .f32)
    (x5 : FVec Ideal Cert.ReferenceIdeal.S896x128 .f32) (x6 : FVec Ideal Cert.ReferenceIdeal.S896 .f32)
    (x7 : FVec Ideal Cert.ReferenceIdeal.S896x128 .f32) (x8 : FVec Ideal Cert.ReferenceIdeal.S896 .f32)
    (x9 : FVec Ideal Cert.ReferenceIdeal.S128x128 .f32) :
    Cert.ReferenceIdeal.Read.val_main_v64 (F := Ideal) x0 x1 x2 x3 x4 x5 x6 x7 x8 x9
      = Cert.Edge.G x0 x1 x2 x3 x4 x5 x6 x7 x8 x9 := by
  funext i
  obtain ⟨e, d, c, rfl⟩ : ∃ (e : Fin 65536) (d : Fin 14) (c : Fin 128), i = ix3 e d c := ⟨i 0, i 1, i 2, eq_ix3 i⟩
  exact Cert.RefEdge.ref_apply x0 x1 x2 x3 x4 x5 x6 x7 x8 x9 e d c

/-- From memories that agree on the arguments both programs end with the result array at `Cert.Edge.G` of the
    arguments: the kernel by its blocks (Proof/KernelArray.lean), the reference by its run read at an entry. -/
theorem algebraic : Cert.algebraic_KernelIdeal_ReferenceIdeal := by
  intro m ρ m' ρ' _ hagree
  refine ⟨fun c => Cert.Edge.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), Cert.KernelArray.run m ρ, ?_⟩
  refine (θ_run Cert.ReferenceIdeal.defs _ _).mono (fun _ h c => ⟨?_, (h c).2⟩)
    (Cert.ReferenceIdeal.Value.run (F := Ideal) m' ρ')
  obtain ⟨a0, a1, a2, a3, a4, a5, a6, a7, a8, a9⟩ := hagree c
  rw [(h c).1, Cert.ReferenceIdeal.Read.val_main_v64_eq, ref_eq, a0, a1, a2, a3, a4, a5, a6, a7, a8, a9]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
